-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x512 : Shape := ⟨3, ![4, 2048, 512]⟩
abbrev S32768x1024 : Shape := ⟨2, ![32768, 1024]⟩
abbrev S1024x512 : Shape := ⟨2, ![1024, 512]⟩
abbrev S512 : Shape := ⟨1, ![512]⟩
abbrev S1024x1024 : Shape := ⟨2, ![1024, 1024]⟩
abbrev S1024 : Shape := ⟨1, ![1024]⟩
abbrev S_ : Shape := ⟨0, ![]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel
  bcast_S_S32768x1024 : S_.BroadcastsInDim S32768x1024 (![] : Fin 0 → Fin S32768x1024.rank)
  reducesTo_S32768x1024_S_d0_1 : S32768x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S1024 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4x2048x512 .f32) (main_arg1 : FVec F S32768x1024 .f32) (main_arg2 : FVec F S1024x512 .f32) (main_arg3 : FVec F S512 .f32) (main_arg4 : FVec F S1024x1024 .f32) (main_arg5 : FVec F S1024 .f32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  let main_v4 : FVec F S32768x1024 .f32 := Host.absf main_arg1
  let main_cst_0 : FVec F S_ .f32 := constant S_ .f32 0x7F800000#32
  let main_v5 : FVec F S32768x1024 .f32 := broadcastInDim S32768x1024 ![] bcast_S_S32768x1024 main_cst_0
  let main_v6 : IVec S32768x1024 1 := cmpf .olt main_v4 main_v5
  let main_c_1 : IVec S_ 1 := constantI S_ 1 1#1
  let main_v7 : IVec S_ 1 := (fun x v => Host.reduce IntOp.andi x v reducesTo_S32768x1024_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S4x2048x512 : Shape := ⟨3, ![4, 2048, 512]⟩
abbrev S32768x1024 : Shape := ⟨2, ![32768, 1024]⟩
abbrev S1024x512 : Shape := ⟨2, ![1024, 512]⟩
abbrev S512 : Shape := ⟨1, ![512]⟩
abbrev S1024x1024 : Shape := ⟨2, ![1024, 1024]⟩
abbrev S1024 : Shape := ⟨1, ![1024]⟩
abbrev S8192x512 : Shape := ⟨2, ![8192, 512]⟩
abbrev S1x512 : Shape := ⟨2, ![1, 512]⟩
abbrev S1x1024 : Shape := ⟨2, ![1, 1024]⟩
abbrev S32768x512 : Shape := ⟨2, ![32768, 512]⟩
abbrev S8192x1024 : Shape := ⟨2, ![8192, 1024]⟩
abbrev S1024x1 : Shape := ⟨2, ![1024, 1]⟩
abbrev S4x2048x1024 : Shape := ⟨3, ![4, 2048, 1024]⟩

abbrev nBuf : Space → Nat
  | .hbm => 15
  | .vmem => 20
  | .smem => 0
  | _ => 0

abbrev bufTy : (tb : Table) → Fin (tcTables nBuf tb) → BufTy
  | .hbm, ⟨0, _⟩ => ⟨S4x2048x512, .f32⟩
  | .hbm, ⟨1, _⟩ => ⟨S32768x1024, .f32⟩
  | .hbm, ⟨2, _⟩ => ⟨S1024x512, .f32⟩
  | .hbm, ⟨3, _⟩ => ⟨S512, .f32⟩
  | .hbm, ⟨4, _⟩ => ⟨S1024x1024, .f32⟩
  | .hbm, ⟨5, _⟩ => ⟨S1024, .f32⟩
  | .hbm, ⟨6, _⟩ => ⟨S8192x512, .f32⟩
  | .hbm, ⟨7, _⟩ => ⟨S1024x512, .bf16⟩
  | .hbm, ⟨8, _⟩ => ⟨S1024x1024, .bf16⟩
  | .hbm, ⟨9, _⟩ => ⟨S1x512, .f32⟩
  | .hbm, ⟨10, _⟩ => ⟨S1x1024, .f32⟩
  | .hbm, ⟨11, _⟩ => ⟨S32768x512, .bf16⟩
  | .hbm, ⟨12, _⟩ => ⟨S32768x1024, .bf16⟩
  | .hbm, ⟨13, _⟩ => ⟨S8192x1024, .f32⟩
  | .hbm, ⟨14, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1x512, .f32⟩
  | .local _ .vmem, ⟨4, _⟩ => ⟨S1024x1024, .bf16⟩
  | .local _ .vmem, ⟨5, _⟩ => ⟨S1x1024, .f32⟩
  | .local _ .vmem, ⟨6, _⟩ => ⟨S1024x512, .bf16⟩
  | .local _ .vmem, ⟨7, _⟩ => ⟨S1024x512, .bf16⟩
  | .local _ .vmem, ⟨8, _⟩ => ⟨S1024x1024, .bf16⟩
  | .local _ .vmem, ⟨9, _⟩ => ⟨S1024x1024, .bf16⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .f32⟩
  | .local _ .vmem, ⟨17, _⟩ => ⟨S1024x1024, .f32⟩
  | .local _ .vmem, ⟨18, _⟩ => ⟨S1024x1, .f32⟩
  | .local _ .vmem, ⟨19, _⟩ => ⟨S1024x1024, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc1_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 32], ![false, false]⟩

def k1_cond2 (i : grid1.Coords) : BitVec 1 :=
  let arg1 : BitVec 32 := BitVec.ofNat 32 (i 1).val
  let c31_i32 : BitVec 32 := 31#32
  let v26 : BitVec 1 := Scalar.cmpi .eq arg1 c31_i32
  let v27 : BitVec 32 := Scalar.extui v26
  let c0_i32_16 : BitVec 32 := 0#32
  let v28 : BitVec 1 := Scalar.cmpi .ne v27 c0_i32_16
  v28

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S4x2048x512_S8192x512 : S4x2048x512.ShapeCasts S8192x512
  bitsLt_bf16_f32 : FTy.bits .bf16 < FTy.bits .f32
  shapeCasts_S512_S1x512 : S512.ShapeCasts S1x512
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S1024x1024_S1024x1024 : S1024x1024.ShapeCasts S1024x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x512_S1024x512_0_0 : (Rect.unit (s := S1024x512) ![0, 0] S1024x512.size inb_S1024x512_S1024x512_0_0).PackedRows (EltTy.packing .bf16)
  packedbf16_S1024x1024_S1024x1024_0_0 : (Rect.unit (s := S1024x1024) ![0, 0] S1024x1024.size inb_S1024x1024_S1024x1024_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1024_S1024 : S1024x1024.Reduces [1] S1024
  shapeCasts_S1024_S1024x1 : S1024.ShapeCasts S1024x1
  broadcasts_S1024x1_S1024x1024 : S1024x1.Broadcasts S1024x1024
  shapeCasts_S8192x1024_S4x2048x1024 : S8192x1024.ShapeCasts S4x2048x1024
  dot_S1024x1024_S1024x512_S1024x512_1_0_0_1_n_n_wf : DotDims.WF S1024x1024 S1024x512 S1024x512 [1] [0] [0] [1] [] []
  dot_S1024x1024_S1024x1024_S1024x1024_1_0_0_1_n_n_wf : DotDims.WF S1024x1024 S1024x1024 S1024x1024 [1] [0] [0] [1] [] []
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S32768x512.size a
  hwx0_5 : ∀ i : grid0.Coords, EltTy.bits .bf16 = 32 ∨ (Rect.block (s := S32768x512) S1024x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S32768x1024.size a
  hwx0_6 : ∀ i : grid0.Coords, EltTy.bits .bf16 = 32 ∨ (Rect.block (s := S32768x1024) S1024x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .f32 = 32 ∨ (Rect.block (s := S8192x512) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S32768x512.size a
  hwx1_1 : ∀ i : grid1.Coords, EltTy.bits .bf16 = 32 ∨ (Rect.block (s := S32768x512) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S32768x1024.size a
  hwx1_2 : ∀ i : grid1.Coords, EltTy.bits .bf16 = 32 ∨ (Rect.block (s := S32768x1024) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x1024.size a
  hwx1_3 : ∀ i : grid1.Coords, EltTy.bits .f32 = 32 ∨ (Rect.block (s := S8192x1024) S1024x1024.size (cc1_transform_3 i) (hinb1_3 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S1024x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_0) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5_1) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x512 : Shape := ⟨3, ![4, 2048, 512]⟩
abbrev S32768x1024 : Shape := ⟨2, ![32768, 1024]⟩
abbrev S1024x512 : Shape := ⟨2, ![1024, 512]⟩
abbrev S512 : Shape := ⟨1, ![512]⟩
abbrev S1024x1024 : Shape := ⟨2, ![1024, 1024]⟩
abbrev S1024 : Shape := ⟨1, ![1024]⟩
abbrev S32768x512 : Shape := ⟨2, ![32768, 512]⟩
abbrev S1x512 : Shape := ⟨2, ![1, 512]⟩
abbrev S4x2048x32768 : Shape := ⟨3, ![4, 2048, 32768]⟩
abbrev S_ : Shape := ⟨0, ![]⟩
abbrev S4x2048 : Shape := ⟨2, ![4, 2048]⟩
abbrev S4x2048x1 : Shape := ⟨3, ![4, 2048, 1]⟩
abbrev S1x1024 : Shape := ⟨2, ![1, 1024]⟩
abbrev S4x2048x1024 : Shape := ⟨3, ![4, 2048, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S32768x1024, .f32⟩
  | .hbm, ⟨2, _⟩ => ⟨S1024x512, .f32⟩
  | .hbm, ⟨3, _⟩ => ⟨S512, .f32⟩
  | .hbm, ⟨4, _⟩ => ⟨S1024x1024, .f32⟩
  | .hbm, ⟨5, _⟩ => ⟨S1024, .f32⟩
  | .hbm, ⟨6, _⟩ => ⟨S32768x512, .f32⟩
  | .hbm, ⟨7, _⟩ => ⟨S1x512, .f32⟩
  | .hbm, ⟨8, _⟩ => ⟨S32768x512, .f32⟩
  | .hbm, ⟨9, _⟩ => ⟨S32768x512, .f32⟩
  | .hbm, ⟨10, _⟩ => ⟨S4x2048x32768, .f32⟩
  | .hbm, ⟨11, _⟩ => ⟨S_, .f32⟩
  | .hbm, ⟨12, _⟩ => ⟨S4x2048, .f32⟩
  | .hbm, ⟨13, _⟩ => ⟨S_, .f32⟩
  | .hbm, ⟨14, _⟩ => ⟨S4x2048, .f32⟩
  | .hbm, ⟨15, _⟩ => ⟨S4x2048, .f32⟩
  | .hbm, ⟨16, _⟩ => ⟨S4x2048x1, .f32⟩
  | .hbm, ⟨17, _⟩ => ⟨S4x2048x32768, .f32⟩
  | .hbm, ⟨18, _⟩ => ⟨S4x2048x32768, .f32⟩
  | .hbm, ⟨19, _⟩ => ⟨S4x2048x32768, .f32⟩
  | .hbm, ⟨20, _⟩ => ⟨S_, .f32⟩
  | .hbm, ⟨21, _⟩ => ⟨S4x2048, .f32⟩
  | .hbm, ⟨22, _⟩ => ⟨S4x2048x1, .f32⟩
  | .hbm, ⟨23, _⟩ => ⟨S4x2048x32768, .f32⟩
  | .hbm, ⟨24, _⟩ => ⟨S4x2048x32768, .f32⟩
  | .hbm, ⟨25, _⟩ => ⟨S32768x1024, .f32⟩
  | .hbm, ⟨26, _⟩ => ⟨S1x1024, .f32⟩
  | .hbm, ⟨27, _⟩ => ⟨S32768x1024, .f32⟩
  | .hbm, ⟨28, _⟩ => ⟨S32768x1024, .f32⟩
  | .hbm, ⟨29, _⟩ => ⟨S4x2048x1024, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  reducesTo_S4x2048x32768_S4x2048_d2 : S4x2048x32768.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x32768_0_1_2 : S4x2048x1.BroadcastsInDim S4x2048x32768 (![0, 1, 2] : Fin 3 → Fin S4x2048x32768.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  dot_S32768x1024_S1024x512_S32768x512_1_0_0_1_n_n_wf : DotDims.WF S32768x1024 S1024x512 S32768x512 [1] [0] [0] [1] [] []
  dot_S4x2048x512_S32768x512_S4x2048x32768_2_1_01_0_n_n_wf : DotDims.WF S4x2048x512 S32768x512 S4x2048x32768 [2] [1] [0, 1] [0] [] []
  dot_S32768x1024_S1024x1024_S32768x1024_1_0_0_1_n_n_wf : DotDims.WF S32768x1024 S1024x1024 S32768x1024 [1] [0] [0] [1] [] []
  dot_S4x2048x32768_S32768x1024_S4x2048x1024_2_0_01_1_n_n_wf : DotDims.WF S4x2048x32768 S32768x1024 S4x2048x1024 [2] [0] [0, 1] [1] [] []

variable [Facts₀]

def dot_S32768x1024_S1024x512_S32768x512_1_0_0_1_n_n : DotDims S32768x1024 S1024x512 S32768x512 where
  lhsContracting := [1]
  rhsContracting := [0]
  lhsNonContracting := [0]
  rhsNonContracting := [1]
  lhsBatch := []
  rhsBatch := []
  wf := dot_S32768x1024_S1024x512_S32768x512_1_0_0_1_n_n_wf
def dot_S4x2048x512_S32768x512_S4x2048x32768_2_1_01_0_n_n : DotDims S4x2048x512 S32768x512 S4x2048x32768 where
  lhsContracting := [2]
  rhsContracting := [1]
  lhsNonContracting := [0, 1]
  rhsNonContracting := [0]
  lhsBatch := []
  rhsBatch := []
  wf := dot_S4x2048x512_S32768x512_S4x2048x32768_2_1_01_0_n_n_wf
def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf
def dot_S4x2048x32768_S32768x1024_S4x2048x1024_2_0_01_1_n_n : DotDims S4x2048x32768 S32768x1024 S4x2048x1024 where
  lhsContracting := [2]
  rhsContracting := [0]
  lhsNonContracting := [0, 1]
  rhsNonContracting := [1]
  lhsBatch := []
  rhsBatch := []
  wf := dot_S4x2048x32768_S32768x1024_S4x2048x1024_2_0_01_1_n_n_wf

class Facts : Prop extends Facts₀ where

variable [Facts]
-- ==== Proof.KiRegion0.lean ====
/-
  Region 0 of the kernel program: the knowledge bank projected to key space and to value space.
  The grid has 32 points; point t stages rows 1024·t … 1024·t + 1023 of the bank, the two weight matrices and the
  two bias rows whole, and leaves  keys = bank_block · Wk + bk  and  values = bank_block · Wv + bv  in the two
  output blocks, each by one whole-buffer store. Stated at a parameter `V`: the buffer contents when the region is
  entered. What the body leaves in an output block is a function of the point's input blocks alone, so the proof
  data is the plain one: the invariant never names a buffer's contents.
-/
import proofs.«426837_j37864431681794_3_alg».proof.Proof.Gen.KernelIdeal.Launch
import proofs.«426837_j37864431681794_3_alg».proof.Proof.Gen.KernelIdeal.Skeleton
import proofs.«426837_j37864431681794_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the bank projected to keys and values, 1024 rows per grid point -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the body finds in each input's staging buffer -/

/-- Input window 0 (the bank's rows, a new block at every point) holds its block in its current staging buffer at every point, fetched there or
    not, for any proof data whose array is `V`'s and whose body leaves the block in place: where the pipeline
    does not fetch, the block index has not moved, so the block kept from the previous point is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl)
      (fun t => by rw [hafter]; unfold Dat.blockOf iblk0; rw [hA]; try rfl) t d).trans
    (by unfold Dat.fetched Dat.blockOf iblk0; rw [hA]; try rfl)

/-- Input window 1 (the key weights, one block for the whole grid) holds its block in its current staging buffer at every point, fetched there or
    not, for any proof data whose array is `V`'s and whose body leaves the block in place: where the pipeline
    does not fetch, the block index has not moved, so the block kept from the previous point is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl)
      (fun t => by rw [hafter]; unfold Dat.blockOf iblk0; rw [hA]; try rfl) t d).trans
    (by unfold Dat.fetched Dat.blockOf iblk0; rw [hA]; try rfl)

/-- Input window 2 (the key bias row, one block for the whole grid) holds its block in its current staging buffer at every point, fetched there or
    not, for any proof data whose array is `V`'s and whose body leaves the block in place: where the pipeline
    does not fetch, the block index has not moved, so the block kept from the previous point is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl)
      (fun t => by rw [hafter]; unfold Dat.blockOf iblk0; rw [hA]; try rfl) t d).trans
    (by unfold Dat.fetched Dat.blockOf iblk0; rw [hA]; try rfl)

/-- Input window 3 (the value weights, one block for the whole grid) holds its block in its current staging buffer at every point, fetched there or
    not, for any proof data whose array is `V`'s and whose body leaves the block in place: where the pipeline
    does not fetch, the block index has not moved, so the block kept from the previous point is this point's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl)
      (fun t => by rw [hafter]; unfold Dat.blockOf iblk0; rw [hA]; try rfl) t d).trans
    (by unfold Dat.fetched Dat.blockOf iblk0; rw [hA]; try rfl)

/-- Input window 4 (the value bias row, one block for the whole grid) holds its block in its current staging buffer at every point, fetched there or
    not, for any proof data whose array is `V`'s and whose body leaves the block in place: where the pipeline
    does not fetch, the block index has not moved, so the block kept from the previous point is this point's. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl)
      (fun t => by rw [hafter]; unfold Dat.blockOf iblk0; rw [hA]; try rfl) t d).trans
    (by unfold Dat.fetched Dat.blockOf iblk0; rw [hA]; try rfl)

/-! ## The body's accesses: every load and store is of a whole staging buffer -/

abbrev rKB : Rect S1024x1024 := Rect.unit (s := S1024x1024) ![0, 0] S1024x1024.size inb_S1024x1024_S1024x1024_0_0
abbrev rK : Rect S1024x512 := Rect.unit (s := S1024x512) ![0, 0] S1024x512.size inb_S1024x512_S1024x512_0_0
abbrev rBk : Rect S1x512 := Rect.unit (s := S1x512) ![0, 0] S1x512.size inb_S1x512_S1x512_0_0
abbrev rBv : Rect S1x1024 := Rect.unit (s := S1x1024) ![0, 0] S1x1024.size inb_S1x1024_S1x1024_0_0

/-- The keys block the body leaves: the bank block times the key weights plus the key bias row, one whole store. -/
def out0_5 (x0 : Vec F S1024x1024 .f32) (x1 : Vec F S1024x512 .bf16) (x2 : Vec F S1x512 .f32) : Vec F S1024x512 .bf16 :=
  View.canon [⟨rK, k0_pay2 (View.ld x0 rKB) (View.ld x1 rK) (View.ld x2 rBk)⟩]

/-- The values block the body leaves: the bank block times the value weights plus the value bias row, one whole store. -/
def out0_6 (x0 : Vec F S1024x1024 .f32) (x3 : Vec F S1024x1024 .bf16) (x4 : Vec F S1x1024 .f32) : Vec F S1024x1024 .bf16 :=
  View.canon [⟨rKB, k0_pay3 (View.ld x0 rKB) (View.ld x3 rKB) (View.ld x4 rBv)⟩]

/-- The proof data of region 0 on core `c`: the arrays as the region finds them; after the body at point `t` each
    input's buffer at its block, the keys and values buffers at `out0_5` / `out0_6` of the input blocks; the
    invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) := by dsimp only [dat0]
theorem after0_6 (c : Dev nD) (t : Fin cfg0.N) :
    (dat0 V c).after 6 t = out0_6 (iblk0 V c 0 t) (iblk0 V c 3 t) (iblk0 V c 4 t) := by dsimp only [dat0]

/-! ## Each output is one whole-buffer store: a single piece that covers the buffer -/

/-- One piece through the whole `1024 × 512` rectangle tiles the keys buffer (block size the buffer's own), so it covers it. -/
theorem cover0_5 (p : rK.shape.Idx → Elt F .bf16) (y : S1024x512.Idx) :
    ∃ pc ∈ ([⟨rK, p⟩] : List (View.Piece (Elt F) S1024x512 .bf16)), y ∈ pc.1.set :=
  View.cover_of_tiled [⟨rK, p⟩] S1024x512.size (by rfl) y

/-- One piece through the whole `1024 × 1024` rectangle tiles the values buffer, so it covers it. -/
theorem cover0_6 (p : rKB.shape.Idx → Elt F .bf16) (y : S1024x1024.Idx) :
    ∃ pc ∈ ([⟨rKB, p⟩] : List (View.Piece (Elt F) S1024x1024 .bf16)), y ∈ pc.1.set :=
  View.cover_of_tiled [⟨rKB, p⟩] S1024x1024.size (by rfl) y

/-! ## The body's triple -/

set_option maxHeartbeats 1000000 in
/-- The body on whole staging memrefs: the five inputs at read contents `x0 … x4`, the two outputs at anything.
    It loads the five inputs whole, loads and discards the keys buffer, stores the keys payload over all of it,
    loads and discards the values buffer, stores the values payload over all of it. So it runs to the continuation
    with the inputs as they were and the outputs reading `out0_5 x0 x1 x2` and `out0_6 x0 x3 x4`: a buffer written
    once through a covering rectangle reads as that one piece, whatever it held. -/
theorem sound_kernel0 (c : Dev nD) (E : Set ℕ) (i : grid0.Coords)
    (a0 : Memref sig .tc .vmem S1024x1024 .f32) (h0 : a0.IsWhole)
    (a1 : Memref sig .tc .vmem S1024x512 .bf16) (h1 : a1.IsWhole)
    (a2 : Memref sig .tc .vmem S1x512 .f32) (h2 : a2.IsWhole)
    (a3 : Memref sig .tc .vmem S1024x1024 .bf16) (h3 : a3.IsWhole)
    (a4 : Memref sig .tc .vmem S1x1024 .f32) (h4 : a4.IsWhole)
    (a5 : Memref sig .tc .vmem S1024x512 .bf16) (h5 : a5.IsWhole)
    (a6 : Memref sig .tc .vmem S1024x1024 .bf16) (h6 : a6.IsWhole)
    (x0 : Vec F S1024x1024 .f32) (x1 : Vec F S1024x512 .bf16) (x2 : Vec F S1x512 .f32)
    (x3 : Vec F S1024x1024 .bf16) (x4 : Vec F S1x1024 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ owns (c : Thread nD τ) a4 fullShare x4
        ∗ (∃ d, owns (c : Thread nD τ) a5 fullShare d) ∗ (∃ d, owns (c : Thread nD τ) a6 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare x4
            ∗ owns (c : Thread nD τ) a5 fullShare (out0_5 x0 x1 x2)
            ∗ owns (c : Thread nD τ) a6 fullShare (out0_6 x0 x3 x4)) -∗ K ⟨⟩))
      ⊢ wp frame (wpE (defs₀ (F := F)) Variants.none c none) E (cc0__proj_kernel i a0 h0 a1 h1 a2 h2 a3 h3 a4 h4 a5 h5 a6 h6) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩,
    ⟨%d5, %f5, -, H5⟩, ⟨%d6, %f6, -, H6⟩, Hk⟩
  subst hf0 hf1 hf2 hf3 hf4
  sl_exec
  sl_step
  iapply Hk
  -- the five inputs were only read: each is handed back at the contents it came with
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  -- each output holds one write through a rectangle covering its buffer: it reads as that piece alone
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The body obligation, at a generic point -/

/-- For `dat0` each input's current staging buffer holds that input's block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`: the invariant, what the core owes, and the seven windows' current
    staging buffers one by one, each at some contents it may then hold. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it returns: the invariant and the debt at the next point, every buffer at what the body leaves there. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point. The five input buffers hold their blocks (`before0_w`), the two output buffers hold
    anything, so the body's triple applies at the blocks; the invariant and the debt do not depend on the point and
    pass through unread; what comes back is, window by window, what `dat0` says the body leaves. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KiRuns1.lean ====
/-
  The body of region 1 (the streaming softmax-weighted average) run once per control case.
  The body branches twice on the second grid coordinate kv: at kv = 0 it first resets the two scratch buffers
  (l, acc) to zero; at kv = 31 it finally stores acc / l into the output block. On a grid of 32 along that axis
  the two never coincide, so a point is in one of three cases: first (reset, accumulate), middle (accumulate),
  last (accumulate, store the quotient). In every case the accumulation is
      l ← l + rowsum (exp (q kᵀ)),   acc ← acc + exp (q kᵀ) · v        (`step1`),
  each by one whole-buffer store, the query, key and value blocks left as found; in the first two cases the
  output buffer is not touched.
-/
import proofs.«426837_j37864431681794_3_alg».proof.Proof.Gen.KernelIdeal.Launch
import proofs.«426837_j37864431681794_3_alg».proof.Proof.Gen.KernelIdeal.Skeleton
import proofs.«426837_j37864431681794_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores

Every load and store of this body goes through the rectangle that is the whole of its buffer (offsets zero, the
buffer's own sizes). Two facts about such a rectangle carry all the runs below: a load through it of a whole memref
reads the contents the memref is held at; and after a store through it, LAST, the buffer reads that store's payload,
whatever was stored before. -/

/-- Both offsets of the whole rectangle of a rank-2 buffer are zero. -/
theorem off2_zero : (![0, 0] : Fin 2 → ℕ) = fun _ => 0 := by
  funext a; fin_cases a <;> rfl

/-- A load of the whole of a whole memref, held at the raw contents that read `X`, reads `X`. -/
theorem readAt_unread_unit_zero {σ : RefSig} {κ : Kind} {sp : Space} {S : Shape} {e : EltTy} {Val : EltTy → Type}
    {m : Memref σ κ sp S e} (hm : m.IsWhole) {off : Fin S.rank → ℕ} (h : off = fun _ => 0)
    (inb : ∀ a, off a + S.size a ≤ S.size a) (X : S.Idx → Val e) :
    View.readAt Val m.view (Rect.unit off S.size inb).toLoadRect (hm.unread X) = X := by
  rw [View.readAt_eq_ld, hm.read_unread, View.ld_unit_zero h inb]

/-- After a LAST store over the whole of a buffer, the buffer reads that store's payload: the one piece covers every
    index, and the canonical contents under the last piece are its payload. -/
theorem read_writes_cons_unit_zero {σ : RefSig} {κ : Kind} {sp : Space} {S : Shape} {e : EltTy} {Val : EltTy → Type}
    [∀ e, Nonempty (Val e)] (v : View σ κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _
    (fun y => ⟨_, List.mem_cons.mpr (Or.inl rfl), View.mem_set_unit_zero h inb y⟩)).trans
    (View.canon_cons_unit_zero h inb w L)

/-- One point's update of the pair (l, acc) from the point's query, key and value blocks. -/
def step1 (q : Vec F S1024x512 .f32) (k : Vec F S1024x512 .bf16) (v : Vec F S1024x1024 .bf16)
    (p : Vec F S1024x1 .f32 × Vec F S1024x1024 .f32) : Vec F S1024x1 .f32 × Vec F S1024x1024 .f32 :=
  (k1_pay4 q k p.1, k1_pay5 q k v p.2)

/-- The body's first branch condition (reset the scratch): the second grid coordinate is 0. -/
abbrev cond1_0 (i : grid1.Coords) : Prop :=
  (Scalar.cmpi .ne (Scalar.extui (Scalar.cmpi .eq (BitVec.ofNat 32 (i 1).val) 0#32)) 0#32) = 1#1
/-- It holds at the first point of each row of the grid. -/
theorem hcond1_0 : ∀ t : Fin cfg1.N, cond1_0 (grid1.coords t) ↔ t.val % 32 = 0 :=
  (by decide +kernel : ∀ t : Fin grid1.N, cond1_0 (grid1.coords t) ↔ t.val % 32 = 0)

/-- The body's second branch condition (store the output): the second grid coordinate is 31. -/
abbrev cond1_1 (i : grid1.Coords) : Prop := k1_cond2 i = 1#1
/-- It holds at the last point of each row of the grid. -/
theorem hcond1_1 : ∀ t : Fin cfg1.N, cond1_1 (grid1.coords t) ↔ t.val % 32 = 31 :=
  (by decide +kernel : ∀ t : Fin grid1.N, cond1_1 (grid1.coords t) ↔ t.val % 32 = 31)

/-- FIRST point of a row: the scratch buffers, found at anything, are reset and then accumulated into, so they end at
    `step1` of zeros; the output buffer, at `xo`, is handed back untouched. -/
theorem run1_first (c : Dev nD) (E : Set ℕ) (i : grid1.Coords) (arg2 : Memref sig .tc .vmem S1024x512 .f32) (harg2 : arg2.IsWhole) (arg3 : Memref sig .tc .vmem S1024x512 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole)
    (h0 : cond1_0 i) (h1 : ¬cond1_1 i)
    (x0 : Vec F S1024x512 .f32) (x1 : Vec F S1024x512 .bf16) (x2 : Vec F S1024x1024 .bf16) (xo : Vec F S1024x1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xo
            ∗ owns (c : Thread nD τ) arg6 fullShare (step1 x0 x1 x2 (k1_pay1, k1_pay2)).1
            ∗ owns (c : Thread nD τ) arg7 fullShare (step1 x0 x1 x2 (k1_pay1, k1_pay2)).2) -∗ K ⟨⟩))
      ⊢ wp frame (wpE (defs₀ (F := F)) Variants.none c none) E (cc1__flash_kernel i arg2 harg2 arg3 harg3 arg4 harg4 arg5 harg5 arg6 harg6 arg7 harg7) K := by
  simp only [cc1__flash_kernel_eq_skeleton]; unfold cc1__flash_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg2.eq_unread hf0; obtain rfl := harg3.eq_unread hf1; obtain rfl := harg4.eq_unread hf2
  obtain rfl := harg5.eq_unread hf3
  sl_exec (disch := first | exact h0 | exact h1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  -- l: stored whole twice, the last store's payload remains; its third argument is the load that followed the
  -- reset store, which read back the zeros
  isplitl [H4]
  · iexists _; isplitr; swap; iexact H4
    ipureintro
    refine (read_writes_cons_unit_zero _ _ off2_zero _ _ _).trans ?_
    sl_unfold_run_names
    rw [readAt_unread_unit_zero harg2 off2_zero, readAt_unread_unit_zero harg3 off2_zero,
      View.readCov_unit_zero _ off2_zero]
    rfl
  -- acc: the same, its last argument the zeros read back
  iexists _; isplitr; swap; iexact H5
  ipureintro
  refine (read_writes_cons_unit_zero _ _ off2_zero _ _ _).trans ?_
  sl_unfold_run_names
  rw [readAt_unread_unit_zero harg2 off2_zero, readAt_unread_unit_zero harg3 off2_zero,
    readAt_unread_unit_zero harg4 off2_zero, View.readCov_unit_zero _ off2_zero]
  rfl

/-- MIDDLE point of a row: the scratch buffers, found at `(l, acc)`, end at `step1 … (l, acc)`; the output buffer,
    at `xo`, is handed back untouched. -/
theorem run1_mid (c : Dev nD) (E : Set ℕ) (i : grid1.Coords) (arg2 : Memref sig .tc .vmem S1024x512 .f32) (harg2 : arg2.IsWhole) (arg3 : Memref sig .tc .vmem S1024x512 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole)
    (h0 : ¬cond1_0 i) (h1 : ¬cond1_1 i)
    (x0 : Vec F S1024x512 .f32) (x1 : Vec F S1024x512 .bf16) (x2 : Vec F S1024x1024 .bf16) (xo : Vec F S1024x1024 .f32)
    (l : Vec F S1024x1 .f32) (acc : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare l ∗ owns (c : Thread nD τ) arg7 fullShare acc
        ∗ (iprop(owns (c : Thread nD τ) arg2 fullShare x0 ∗ owns (c : Thread nD τ) arg3 fullShare x1 ∗ owns (c : Thread nD τ) arg4 fullShare x2
            ∗ owns (c : Thread nD τ) arg5 fullShare xo
            ∗ owns (c : Thread nD τ) arg6 fullShare (step1 x0 x1 x2 (l, acc)).1
            ∗ owns (c : Thread nD τ) arg7 fullShare (step1 x0 x1 x2 (l, acc)).2) -∗ K ⟨⟩))
      ⊢ wp frame (wpE (defs₀ (F := F)) Variants.none c none) E (cc1__flash_kernel i arg2 harg2 arg3 harg3 arg4 harg4 arg5 harg5 arg6 harg6 arg7 harg7) K := by
  simp only [cc1__flash_kernel_eq_skeleton]; unfold cc1__flash_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact h0 | exact h1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  -- l: one whole store, of the update of what the loads read: q, k and l as found
  isplitl [H4]
  · iexists _; isplitr; swap; iexact H4
    ipureintro
    refine (read_writes_cons_unit_zero _ _ off2_zero _ _ _).trans ?_
    rw [readAt_unread_unit_zero harg2 off2_zero, readAt_unread_unit_zero harg3 off2_zero,
      readAt_unread_unit_zero harg6 off2_zero]
    rfl
  -- acc: one whole store, of the update of q, k, v and acc as found
  iexists _; isplitr; swap; iexact H5
  ipureintro
  refine (read_writes_cons_unit_zero _ _ off2_zero _ _ _).trans ?_
  rw [readAt_unread_unit_zero harg2 off2_zero, readAt_unread_unit_zero harg3 off2_zero,
    readAt_unread_unit_zero harg4 off2_zero, readAt_unread_unit_zero harg7 off2_zero]
  rfl

/-- LAST point of a row: the scratch buffers, found at `(l, acc)`, end at `step1 … (l, acc)`, and the output buffer, found
    at anything, ends at the quotient acc / l of the updated pair (`k1_pay6`). -/
theorem run1_last (c : Dev nD) (E : Set ℕ) (i : grid1.Coords) (arg2 : Memref sig .tc .vmem S1024x512 .f32) (harg2 : arg2.IsWhole) (arg3 : Memref sig .tc .vmem S1024x512 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1024 .f32) (harg7 : arg7.IsWhole)
    (h0 : ¬cond1_0 i) (h1 : cond1_1 i)
    (x0 : Vec F S1024x512 .f32) (x1 : Vec F S1024x512 .bf16) (x2 : Vec F S1024x1024 .bf16)
    (l : Vec F S1024x1 .f32) (acc : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare l ∗ owns (c : Thread nD τ) arg7 fullShare acc
        ∗ (iprop(owns (c : Thread nD τ) arg2 fullShare x0 ∗ owns (c : Thread nD τ) arg3 fullShare x1 ∗ owns (c : Thread nD τ) arg4 fullShare x2
            ∗ owns (c : Thread nD τ) arg5 fullShare (k1_pay6 (step1 x0 x1 x2 (l, acc)).2 (step1 x0 x1 x2 (l, acc)).1)
            ∗ owns (c : Thread nD τ) arg6 fullShare (step1 x0 x1 x2 (l, acc)).1
            ∗ owns (c : Thread nD τ) arg7 fullShare (step1 x0 x1 x2 (l, acc)).2) -∗ K ⟨⟩))
      ⊢ wp frame (wpE (defs₀ (F := F)) Variants.none c none) E (cc1__flash_kernel i arg2 harg2 arg3 harg3 arg4 harg4 arg5 harg5 arg6 harg6 arg7 harg7) K := by
  simp only [cc1__flash_kernel_eq_skeleton]; unfold cc1__flash_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  obtain rfl := harg2.eq_unread hf0; obtain rfl := harg3.eq_unread hf1; obtain rfl := harg4.eq_unread hf2
  obtain rfl := harg6.eq_unread hf4; obtain rfl := harg7.eq_unread hf5
  sl_exec (disch := first | exact h0 | exact h1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  -- the output: one whole store of the quotient of the two loads that followed the accumulation stores, which
  -- read back the updated acc and l
  isplitl [H3]
  · iexists _; isplitr; swap; iexact H3
    ipureintro
    refine (read_writes_cons_unit_zero _ _ off2_zero _ _ _).trans ?_
    sl_unfold_run_names
    rw [View.readCov_unit_zero _ off2_zero, View.readCov_unit_zero _ off2_zero,
      readAt_unread_unit_zero harg2 off2_zero, readAt_unread_unit_zero harg3 off2_zero,
      readAt_unread_unit_zero harg4 off2_zero, readAt_unread_unit_zero harg6 off2_zero,
      readAt_unread_unit_zero harg7 off2_zero]
    rfl
  -- l and acc: as at a middle point
  isplitl [H4]
  · iexists _; isplitr; swap; iexact H4
    ipureintro
    sl_unfold_run_names
    refine (read_writes_cons_unit_zero _ _ off2_zero _ _ _).trans ?_
    rw [readAt_unread_unit_zero harg2 off2_zero, readAt_unread_unit_zero harg3 off2_zero,
      readAt_unread_unit_zero harg6 off2_zero]
    rfl
  iexists _; isplitr; swap; iexact H5
  ipureintro
  sl_unfold_run_names
  refine (read_writes_cons_unit_zero _ _ off2_zero _ _ _).trans ?_
  rw [readAt_unread_unit_zero harg2 off2_zero, readAt_unread_unit_zero harg3 off2_zero,
    readAt_unread_unit_zero harg4 off2_zero, readAt_unread_unit_zero harg7 off2_zero]
  rfl

end Cert.KernelIdeal.Fr

end
-- ==== Proof.KiRegion1.lean ====
/-
  Region 1 of the kernel program: the streaming softmax-weighted average.
  The grid is 8 × 32: point (i, kv) stages query rows 1024·i …, key rows 1024·kv … and value rows 1024·kv …, and keeps
  two scratch buffers across the 32 points of a row of the grid: `l` (1024 × 1, the running sum of exp scores) and
  `acc` (1024 × 1024, the running sum of exp-score-weighted value rows). At kv = 0 both are reset to zero; at every
  point  l ← l + rowsum (exp (q kᵀ)),  acc ← acc + exp (q kᵀ) · v;  at kv = 31 the output block is  acc / l.
  Every store is of a whole buffer, so what each buffer holds after a point is the body's named payload of the
  point's blocks and of what the point before left: `sc1`, by recursion on the point.
-/
import proofs.«426837_j37864431681794_3_alg».proof.Proof.KiRuns1
import proofs.«426837_j37864431681794_3_alg».proof.Proof.Gen.KernelIdeal.Launch
import proofs.«426837_j37864431681794_3_alg».proof.Proof.Gen.KernelIdeal.Skeleton
import proofs.«426837_j37864431681794_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two scratch buffers, whole. -/
abbrev scM1_0 : Memref sig .tc .vmem S1024x1 .f32 := Memref.whole cc1_scratch0
abbrev scM1_1 : Memref sig .tc .vmem S1024x1024 .f32 := Memref.whole cc1_scratch1

/-- The pair (l, acc) a point starts from: zeros at the first point of a row of the grid, else what the point before left. -/
def start1 (n : ℕ) (prev : Vec F S1024x1 .f32 × Vec F S1024x1024 .f32) : Vec F S1024x1 .f32 × Vec F S1024x1024 .f32 :=
  if n % 32 = 0 then (k1_pay1, k1_pay2) else prev

/-- THE ACCUMULATION: what the scratch buffers (l, acc) hold after the body at point `n`. -/
def sc1 (c : Dev nD) : (n : ℕ) → n < cfg1.N → Vec F S1024x1 .f32 × Vec F S1024x1024 .f32
  | 0, hn => step1 (iblk1 V c 0 ⟨0, hn⟩) (iblk1 V c 1 ⟨0, hn⟩) (iblk1 V c 2 ⟨0, hn⟩) (k1_pay1, k1_pay2)
  | n + 1, hn => step1 (iblk1 V c 0 ⟨n + 1, hn⟩) (iblk1 V c 1 ⟨n + 1, hn⟩) (iblk1 V c 2 ⟨n + 1, hn⟩)
      (start1 (n + 1) (sc1 c n (Nat.lt_of_succ_lt hn)))

/-- At the first point of a row of the grid the accumulation starts from zeros. -/
theorem sc1_first (c : Dev nD) (t : Fin cfg1.N) (h : t.val % 32 = 0) :
    sc1 V c t.val t.isLt = step1 (iblk1 V c 0 t) (iblk1 V c 1 t) (iblk1 V c 2 t) (k1_pay1, k1_pay2) := by
  obtain ⟨n, hn⟩ := t
  cases n with
  | zero => rfl
  | succ n => exact congrArg (step1 _ _ _) (if_pos h)

/-- At any other point it continues from what the point before left. -/
theorem sc1_next (c : Dev nD) (t : Fin cfg1.N) (h : ¬ t.val % 32 = 0) :
    sc1 V c t.val t.isLt = step1 (iblk1 V c 0 t) (iblk1 V c 1 t) (iblk1 V c 2 t)
      (sc1 V c (t.val - 1) (Nat.lt_of_le_of_lt (Nat.sub_le _ _) t.isLt)) := by
  obtain ⟨n, hn⟩ := t
  cases n with
  | zero => exact absurd (Nat.zero_mod _) h
  | succ n => exact congrArg (step1 _ _ _) (if_neg h)

/-- The output block the body stores at the last point of a row of the grid: acc / l, of this point's scratch. -/
def out1_3 (c : Dev nD) (t : Fin cfg1.N) : Vec F S1024x1024 .f32 :=
  k1_pay6 (sc1 V c t.val t.isLt).2 (sc1 V c t.val t.isLt).1

/-- Region 0's ten staging buffers — scoped buffers of the core that region 1 neither stages through nor uses —, each at
    some contents, then the two scratch buffers at `l`, `acc`: the core's scoped rest as region 1 sees it. -/
def scoped1 (c : Dev nD) (l : Vec F S1024x1 .f32) (acc : Vec F S1024x1024 .f32) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f)
    ∗ owns (c : Thread nD τ) scM1_0 fullShare l ∗ owns (c : Thread nD τ) scM1_1 fullShare acc)

/-- The region invariant before position `n`: before the first point the scoped rest at anything and the generator
    register; afterwards the scoped rest with the scratch buffers at what the point before left (`sc1`). -/
def PhiS1 (c : Dev nD) : (n : ℕ) → n ≤ cfg1.N → sProp 𝕄
  | 0, _ => Pipeline.ΦA spec1 c
  | n + 1, hn => iprop(scoped1 c (sc1 V c n hn).1 (sc1 V c n hn).2 ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(scoped1 c (sc1 V c n hn).1 (sc1 V c n hn).2 ∗ (∃ r, prngReg c r)) := rfl

theorem PhiS1_pos (c : Dev nD) (n : ℕ) (h : n ≤ cfg1.N) (hz : n ≠ 0) :
    PhiS1 V c n h = iprop(scoped1 c (sc1 V c (n - 1) (by omega)).1 (sc1 V c (n - 1) (by omega)).2 ∗ (∃ r, prngReg c r)) := by
  cases n with
  | zero => exact absurd rfl hz
  | succ n => rfl

/-- The proof data of region 1 on core `c`: the arrays as the region finds them; after the body at point `t` each
    input's buffer at its block and the output's at `out1_3` (read only where the block is written back: the last point
    of a row of the grid); the invariant carries the scratch (`PhiS1`); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 V c t := by dsimp only [dat1]

/-! ## Where the output window is idle

The output block is stored only at the last point of a row of the grid (kv = 31), and written back exactly there. -/

/-- Away from the last point of a row the output window is idle: the body stores nothing into it, -/
theorem idleAt1_3 (t : Fin cfg1.N) (h : ¬ t.val % 32 = 31) : cfg1.idle 3 (grid1.coords t) = true := by
  have hc : ¬ k1_cond2 (grid1.coords t) = 1#1 := fun hc => h ((hcond1_1 t).mp hc)
  show (!(k1_cond2 (grid1.coords t) == 1#1)) = true
  rw [Bool.not_eq_true', beq_eq_false_iff_ne]
  exact hc

/-- and its block is not written back. -/
theorem noFlush1_3 (t : Fin cfg1.N) (h : ¬ t.val % 32 = 31) : (cfg1.win 3).flush t = false :=
  Bool.eq_false_iff.mpr fun hf => h ((flush1_3 t).mp hf)

/-- At the last point of a row it is live. -/
theorem liveAt1_3 (t : Fin cfg1.N) (h : t.val % 32 = 31) : cfg1.idle 3 (grid1.coords t) = false := by
  have hc : k1_cond2 (grid1.coords t) = 1#1 := (hcond1_1 t).mpr h
  show (!(k1_cond2 (grid1.coords t) == 1#1)) = false
  rw [hc]
  rfl

/-! ## What the input windows' buffers hold when the body runs

The body leaves the query, key and value blocks as found, and no block is cut by its array's edge; so each input's
current buffer holds the array's block of the point, whether the pipeline fetched it there or (the query block, while
the row of the grid does not change) the point before left it. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; rfl) t d).trans rfl

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; rfl) t d).trans rfl

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; rfl) t d).trans rfl

/-! ## The scoped rest, with the scratch buffers split off

The body touches, of the core's scoped rest, the two scratch buffers only. -/

/-- Two assertions that entail each other are equal. -/
theorem sProp_ext1 {P Q : sProp 𝕄} (h₁ : P ⊢ Q) (h₂ : Q ⊢ P) : P = Q := BI.equiv_iff.mp ⟨h₁, h₂⟩

/-- Region 0's ten staging buffers, each at some contents: the part of the scoped rest the body leaves alone. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The scoped rest at named scratch contents is the untouched part and the two scratch buffers. -/
theorem scoped1_eq (c : Dev nD) (l : Vec F S1024x1 .f32) (acc : Vec F S1024x1024 .f32) :
    scoped1 (F := F) c l acc
      = iprop(rest1 (F := F) c ∗ owns (c : Thread nD τ) scM1_0 fullShare l ∗ owns (c : Thread nD τ) scM1_1 fullShare acc) := by
  unfold scoped1 rest1
  refine sProp_ext1 ?_ ?_
  · iintro ⟨R0, R1, R2, R3, R4, R5, R6, R7, R8, R9, Hl, Ha⟩
    isplitl [R0 R1 R2 R3 R4 R5 R6 R7 R8 R9]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      iexact R9
    isplitl [Hl]; · iexact Hl
    iexact Ha
  · iintro ⟨⟨R0, R1, R2, R3, R4, R5, R6, R7, R8, R9⟩, Hl, Ha⟩
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [Hl]; · iexact Hl
    iexact Ha

/-- The class invariant, likewise: the untouched part, the two scratch buffers at anything, the generator register. -/
theorem PhiA1_eq (c : Dev nD) :
    (Pipeline.ΦA spec1 c : sProp 𝕄)
      = iprop((rest1 (F := F) c ∗ (∃ l, owns (c : Thread nD τ) scM1_0 fullShare l) ∗ (∃ acc, owns (c : Thread nD τ) scM1_1 fullShare acc))
          ∗ (∃ r, prngReg c r)) := by
  unfold Pipeline.ΦA rest1
  rw [scopedRest1_eq]
  simp only [owns_whole]
  refine sProp_ext1 ?_ ?_
  · iintro ⟨⟨R0, R1, R2, R3, R4, R5, R6, R7, R8, R9, Hl, Ha⟩, Hg⟩
    isplitl [R0 R1 R2 R3 R4 R5 R6 R7 R8 R9 Hl Ha]
    · isplitl [R0 R1 R2 R3 R4 R5 R6 R7 R8 R9]
      · isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        iexact R9
      isplitl [Hl]; · iexact Hl
      iexact Ha
    iexact Hg
  · iintro ⟨⟨⟨R0, R1, R2, R3, R4, R5, R6, R7, R8, R9⟩, Hl, Ha⟩, Hg⟩
    isplitl [R0 R1 R2 R3 R4 R5 R6 R7 R8 R9 Hl Ha]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [Hl]; · iexact Hl
      iexact Ha
    iexact Hg

/-! ## What the body leaves in each window's buffer -/

theorem leaves1_0 (c : Dev nD) (t : Fin cfg1.N) :
    (dat1 V c).leavesExact 0 t = owns (c : Thread nD τ) (st1_0 t) fullShare (iblk1 V c 0 t) := by
  unfold Dat.leavesExact; rw [after1_0]

theorem leaves1_1 (c : Dev nD) (t : Fin cfg1.N) :
    (dat1 V c).leavesExact 1 t = owns (c : Thread nD τ) (st1_1 t) fullShare (iblk1 V c 1 t) := by
  unfold Dat.leavesExact; rw [after1_1]

theorem leaves1_2 (c : Dev nD) (t : Fin cfg1.N) :
    (dat1 V c).leavesExact 2 t = owns (c : Thread nD τ) (st1_2 t) fullShare (iblk1 V c 2 t) := by
  unfold Dat.leavesExact; rw [after1_2]

/-- At the last point of a row the output buffer is left at the quotient acc / l of the point's scratch. -/
theorem leaves1_3 (c : Dev nD) (t : Fin cfg1.N) (h : t.val % 32 = 31) :
    (dat1 V c).leavesExact 3 t
      = owns (c : Thread nD τ) (st1_3 t) fullShare (k1_pay6 (sc1 V c t.val t.isLt).2 (sc1 V c t.val t.isLt).1) := by
  unfold Dat.leavesExact; rw [liveAt1_3 t h, after1_3]; rfl

/-! ## The body obligation, at a generic point -/

/-- The invariant at a point's start, restated at the point's position. -/
theorem PhiS1_castSucc (c : Dev nD) (t : Fin cfg1.N) :
    (dat1 V c).Φ t.castSucc = PhiS1 V c t.val (Nat.le_of_lt t.isLt) := rfl

/-- What the body is called with at point `t`: the invariant, what the core owes, each window's current buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 1600000 in
/-- The body at any point. The query, key and value buffers hold the point's blocks. By the point's place in its row
    of the grid it is a first, a middle or a last point; the invariant hands the body the scratch buffers — at anything
    before the very first point, else at what the point before left, which a first point of a later row overwrites
    with zeros — and takes them back at this point's pair; the output buffer is handed back as found except at a last
    point, where it holds the quotient; the untouched scoped buffers, the generator register and what the core owes
    pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = PhiS1 V c (t.val + 1) t.isLt from rfl, PhiS1_succ, PhiS1_castSucc,
    leaves1_0, leaves1_1, leaves1_2, scoped1_eq]
  have hN : t.val < 256 := lt_of_lt_of_eq t.isLt N_1
  by_cases h0 : t.val % 32 = 0
  · -- a first point of a row: reset, then accumulate
    have h1 : ¬ t.val % 32 = 31 := by omega
    have hc0 : cond1_0 (grid1.coords t) := (hcond1_0 t).mpr h0
    have hc1 : ¬ cond1_1 (grid1.coords t) := fun h => h1 ((hcond1_1 t).mp h)
    rw [Dat.leavesExact_idle (dat1 V c) 3 t (idleAt1_3 t h1) (noFlush1_3 t h1), sc1_first V c t h0]
    by_cases hz : t.val = 0
    · rw [PhiS1_zero V c _ _ hz, PhiA1_eq]
      iintro ⟨⟨⟨HR, Hl, Ha⟩, Hg⟩, Ho, ⟨%d0, H0⟩, ⟨%d1, H1⟩, ⟨%d2, H2⟩, ⟨%d3, H3⟩⟩
      iapply (run1_first c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) scM1_0 (Memref.isWhole_whole _) scM1_1 (Memref.isWhole_whole _) hc0 hc1 (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [Hl]; · iexact Hl
      isplitl [Ha]; · iexact Ha
      iintro ⟨H0, H1, H2, H3, Hl, Ha⟩
      isplitl [HR Hl Ha Hg]
      · isplitl [HR Hl Ha]
        · isplitl [HR]; · iexact HR
          isplitl [Hl]; · iexact Hl
          iexact Ha
        iexact Hg
      isplitl [Ho]; · iexact Ho
      isplitl [H0]; · iexact H0
      isplitl [H1]; · iexact H1
      isplitl [H2]; · iexact H2
      iexists _; iexact H3
    · rw [PhiS1_pos V c _ _ hz, scoped1_eq]
      iintro ⟨⟨⟨HR, Hl, Ha⟩, Hg⟩, Ho, ⟨%d0, H0⟩, ⟨%d1, H1⟩, ⟨%d2, H2⟩, ⟨%d3, H3⟩⟩
      iapply (run1_first c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) scM1_0 (Memref.isWhole_whole _) scM1_1 (Memref.isWhole_whole _) hc0 hc1 (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [Hl]; · iexists _; iexact Hl
      isplitl [Ha]; · iexists _; iexact Ha
      iintro ⟨H0, H1, H2, H3, Hl, Ha⟩
      isplitl [HR Hl Ha Hg]
      · isplitl [HR Hl Ha]
        · isplitl [HR]; · iexact HR
          isplitl [Hl]; · iexact Hl
          iexact Ha
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    have hc0 : ¬ cond1_0 (grid1.coords t) := fun h => h0 ((hcond1_0 t).mp h)
    by_cases h1 : t.val % 32 = 31
    · -- a last point of a row: accumulate, then store the quotient
      have hc1 : cond1_1 (grid1.coords t) := (hcond1_1 t).mpr h1
      rw [leaves1_3 V c t h1, sc1_next V c t h0, PhiS1_pos V c _ _ hz, scoped1_eq]
      iintro ⟨⟨⟨HR, Hl, Ha⟩, Hg⟩, Ho, ⟨%d0, H0⟩, ⟨%d1, H1⟩, ⟨%d2, H2⟩, ⟨%d3, H3⟩⟩
      iapply (run1_last c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) scM1_0 (Memref.isWhole_whole _) scM1_1 (Memref.isWhole_whole _) hc0 hc1 (iblk1 V c 0 t) (iblk1 V c 1 t) (iblk1 V c 2 t) (sc1 V c (t.val - 1) (by omega)).1 (sc1 V c (t.val - 1) (by omega)).2 _)
      isplitl [H0]; · iexact H0
      isplitl [H1]; · iexact H1
      isplitl [H2]; · iexact H2
      isplitl [H3]; · iexists _; iexact H3
      isplitl [Hl]; · iexact Hl
      isplitl [Ha]; · iexact Ha
      iintro ⟨H0, H1, H2, H3, Hl, Ha⟩
      isplitl [HR Hl Ha Hg]
      · isplitl [HR Hl Ha]
        · isplitl [HR]; · iexact HR
          isplitl [Hl]; · iexact Hl
          iexact Ha
        iexact Hg
      isplitl [Ho]; · iexact Ho
      isplitl [H0]; · iexact H0
      isplitl [H1]; · iexact H1
      isplitl [H2]; · iexact H2
      iexact H3
    · -- a middle point: accumulate
      have hc1 : ¬ cond1_1 (grid1.coords t) := fun h => h1 ((hcond1_1 t).mp h)
      rw [Dat.leavesExact_idle (dat1 V c) 3 t (idleAt1_3 t h1) (noFlush1_3 t h1), sc1_next V c t h0,
        PhiS1_pos V c _ _ hz, scoped1_eq]
      iintro ⟨⟨⟨HR, Hl, Ha⟩, Hg⟩, Ho, ⟨%d0, H0⟩, ⟨%d1, H1⟩, ⟨%d2, H2⟩, ⟨%d3, H3⟩⟩
      iapply (run1_mid c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) scM1_0 (Memref.isWhole_whole _) scM1_1 (Memref.isWhole_whole _) hc0 hc1 (iblk1 V c 0 t) (iblk1 V c 1 t) (iblk1 V c 2 t) ((dat1 V c).before 3 t d3) (sc1 V c (t.val - 1) (by omega)).1 (sc1 V c (t.val - 1) (by omega)).2 _)
      isplitl [H0]; · iexact H0
      isplitl [H1]; · iexact H1
      isplitl [H2]; · iexact H2
      isplitl [H3]; · iexact H3
      isplitl [Hl]; · iexact Hl
      isplitl [Ha]; · iexact Ha
      iintro ⟨H0, H1, H2, H3, Hl, Ha⟩
      isplitl [HR Hl Ha Hg]
      · isplitl [HR Hl Ha]
        · isplitl [HR]; · iexact HR
          isplitl [Hl]; · iexact Hl
          iexact Ha
        iexact Hg
      isplitl [Ho]; · iexact Ho
      isplitl [H0]; · iexact H0
      isplitl [H1]; · iexact H1
      isplitl [H2]; · iexact H2
      iexists _; iexact H3

/-- The library's body obligation for region 1, at every point. -/
theorem body_obligation1 (c : Dev nD) : BodyObligation (dat1 (F := F) V c) (defs₀ (F := F)) Variants.none () Set.univ := by
  intro t
  rw [bigSep_W1, bigSep_W1]
  exact sound_body1 V c t

/-- What the launch hands the region is the invariant before the first point. -/
theorem hin1 (c : Dev nD) : Pipeline.ΦA spec1 c ⊢ (dat1 V c).Φ 0 := by
  exact BI.Entails.refl _

/-- After the last point the invariant gives the scoped rest and the generator register back, the scratch contents forgotten. -/
theorem hout1 (c : Dev nD) : (dat1 V c).Φ (Fin.last cfg1.N) ⊢ Pipeline.ΦA spec1 c := by
  have hz : (Fin.last cfg1.N).val ≠ 0 := by
    have hN : cfg1.N = 256 := N_1
    rw [Fin.val_last]; omega
  rw [show (dat1 V c).Φ (Fin.last cfg1.N) = PhiS1 V c (Fin.last cfg1.N).val (Nat.le_of_lt_succ (Fin.last cfg1.N).isLt) from rfl,
    PhiS1_pos V c _ _ hz, scoped1_eq, PhiA1_eq]
  iintro ⟨⟨HR, Hl, Ha⟩, Hg⟩
  isplitl [HR Hl Ha]
  · isplitl [HR]; · iexact HR
    isplitl [Hl]; · iexists _; iexact Hl
    iexists _; iexact Ha
  iexact Hg

end Cert.KernelIdeal.Fr

end
-- ==== Proof.KiFold.lean ====
/-
  The contents of every unscoped buffer of a core at each boundary of the kernel program, as a fold from the launch
  memory: after the host prefix (the queries flattened, the two weight matrices narrowed, the two biases made rows),
  after region 0 (its two output arrays at what the 32 write-backs leave, everything else as entered), after region 1
  (its output array at what the 8 write-backs leave), after the final reshape. No host operation and no region writes
  an argument, so each argument's buffer walks back through the fold to its launch contents; and region 1 finds in its
  key and value arrays exactly what region 0 left there.
-/
import proofs.«426837_j37864431681794_3_alg».proof.Proof.KiRegion0
import proofs.«426837_j37864431681794_3_alg».proof.Proof.KiRegion1
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host prefix (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b

/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents, region 1's entry contents). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the final reshape (the return). -/
abbrev W4 : Dev nD → Valuation τ sig (Elt F) := fun c => StableHlo.after hostOps2 (W3 m ρ c)

/-! ## Region 1 finds what region 0 left -/

/-- Region 1's key array is region 0's first output array after its last write-back. -/
theorem V2_keys (c : Dev nD) : V2 m ρ c main_v5_0 = (dat0 (V1 m ρ) c).arrAt 5 cfg0.N :=
  W2_arr m ρ c 5
/-- Region 1's value array is region 0's second output array after its last write-back. -/
theorem V2_vals (c : Dev nD) : V2 m ρ c main_v5_1 = (dat0 (V1 m ρ) c).arrAt 6 cfg0.N :=
  W2_arr m ρ c 6
/-- Region 1's query array is the host prefix's flattened queries: region 0 does not write it. -/
theorem V2_q (c : Dev nD) : V2 m ρ c main_v0 = V1 m ρ c main_v0 :=
  W2_of_ne m ρ c main_v0 (by decide)
/-- The program's output array before the final reshape is region 1's output array after its last write-back. -/
theorem V3_out (c : Dev nD) : V3 m ρ c main_v6 = (dat1 (V2 m ρ) c).arrAt 3 cfg1.N :=
  W3_arr m ρ c 3

/-! ## The arguments end as launched -/

/-- The host prefix writes the five derived arrays only: any other buffer leaves it as it entered. -/
theorem W1_of_not_written (c : Dev nD) (r : Ref sig .tc)
    (h : r ∉ ([main_v0, main_v1, main_v2, main_v3, main_v4] : List (Ref sig .tc))) :
    W1 m ρ c (Proc.devRef .tc r) = W0 m ρ c (Proc.devRef .tc r) :=
  StableHlo.after_of_forall_not_mem (b := Proc.devRef .tc r) _ _ (List.forall_iff_forall_mem.mp (by
    simp only [hostOps0, List.Forall, StableHlo.unary_writes, StableHlo.reshape_writes, Finset.mem_singleton]
    refine ⟨?_, ?_, ?_, ?_, ?_⟩ <;>
      exact StableHlo.devRef_ne_of_ne (fun e => h (by rw [e]; decide))))

/-- The final reshape writes the returned array only: any other buffer leaves it as it entered. -/
theorem W4_of_not_written (c : Dev nD) (r : Ref sig .tc) (h : r ≠ main_v7) :
    W4 m ρ c (Proc.devRef .tc r) = W3 m ρ c (Proc.devRef .tc r) :=
  StableHlo.after_of_forall_not_mem (b := Proc.devRef .tc r) _ _ (List.forall_iff_forall_mem.mp (by
    simp only [hostOps2, List.Forall, StableHlo.reshape_writes, Finset.mem_singleton]
    exact StableHlo.devRef_ne_of_ne h))

theorem W4_main_arg0 (c : Dev nD) : W4 m ρ c (Proc.devRef .tc main_arg0) = m ((c : Thread nD τ).loc main_arg0) :=
  -- no host operation writes it and it is an array of neither region
  calc W4 m ρ c (Proc.devRef .tc main_arg0)
    _ = W3 m ρ c (Proc.devRef .tc main_arg0) := W4_of_not_written m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of_not_written m ρ c main_arg0 (by decide)
    _ = m ((c : Thread nD τ).loc main_arg0) := rfl
theorem W4_main_arg1 (c : Dev nD) : W4 m ρ c (Proc.devRef .tc main_arg1) = m ((c : Thread nD τ).loc main_arg1) :=
  -- the bank is region 0's first input array: an input array is never written back
  calc W4 m ρ c (Proc.devRef .tc main_arg1)
    _ = W3 m ρ c (Proc.devRef .tc main_arg1) := W4_of_not_written m ρ c main_arg1 (by decide)
    _ = W2 m ρ c (Proc.devRef .tc main_arg1) := W3_of_ne m ρ c main_arg1 (by decide)
    _ = W1 m ρ c (Proc.devRef .tc main_arg1) :=
      (W2_arr m ρ c 0).trans (((dat0 (V1 m ρ) c).arrAt_in 0 rfl _).trans (A_eq0 (V1 m ρ) c 0))
    _ = W0 m ρ c (Proc.devRef .tc main_arg1) := W1_of_not_written m ρ c main_arg1 (by decide)
    _ = m ((c : Thread nD τ).loc main_arg1) := rfl
theorem W4_main_arg2 (c : Dev nD) : W4 m ρ c (Proc.devRef .tc main_arg2) = m ((c : Thread nD τ).loc main_arg2) :=
  -- no host operation writes it and it is an array of neither region
  calc W4 m ρ c (Proc.devRef .tc main_arg2)
    _ = W3 m ρ c (Proc.devRef .tc main_arg2) := W4_of_not_written m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_not_written m ρ c main_arg2 (by decide)
    _ = m ((c : Thread nD τ).loc main_arg2) := rfl
theorem W4_main_arg3 (c : Dev nD) : W4 m ρ c (Proc.devRef .tc main_arg3) = m ((c : Thread nD τ).loc main_arg3) :=
  -- no host operation writes it and it is an array of neither region
  calc W4 m ρ c (Proc.devRef .tc main_arg3)
    _ = W3 m ρ c (Proc.devRef .tc main_arg3) := W4_of_not_written m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_not_written m ρ c main_arg3 (by decide)
    _ = m ((c : Thread nD τ).loc main_arg3) := rfl
theorem W4_main_arg4 (c : Dev nD) : W4 m ρ c (Proc.devRef .tc main_arg4) = m ((c : Thread nD τ).loc main_arg4) :=
  -- no host operation writes it and it is an array of neither region
  calc W4 m ρ c (Proc.devRef .tc main_arg4)
    _ = W3 m ρ c (Proc.devRef .tc main_arg4) := W4_of_not_written m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of_not_written m ρ c main_arg4 (by decide)
    _ = m ((c : Thread nD τ).loc main_arg4) := rfl
theorem W4_main_arg5 (c : Dev nD) : W4 m ρ c (Proc.devRef .tc main_arg5) = m ((c : Thread nD τ).loc main_arg5) :=
  -- no host operation writes it and it is an array of neither region
  calc W4 m ρ c (Proc.devRef .tc main_arg5)
    _ = W3 m ρ c (Proc.devRef .tc main_arg5) := W4_of_not_written m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_of_not_written m ρ c main_arg5 (by decide)
    _ = m ((c : Thread nD τ).loc main_arg5) := rfl

end Cert.KernelIdeal.Fr

end
-- ==== Proof.KiHooks.lean ====
/-
  The boundary contents read at an index, at the ideal instance (a change of float format is the identity there):
  the flattened queries are the queries at (b, s) = (n / 2048, n % 2048); the narrowed weight matrices are the weight
  matrices; the bias rows are the biases; the bank is untouched; the result is region 1's output array unflattened.
-/
import proofs.«426837_j37864431681794_3_alg».proof.Proof.KiFold
import Idealize.ShloMosaic.Lib.ValueIdx
import Idealize.ShloMosaic.Lib.Pipeline.Value
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open ValueIdx

variable (m : (ℓ : Loc nD τ sig) → Buf (Elt Ideal) ℓ) (ρ : Dev nD → PrngReg)

theorem bank_apply (c : Dev nD) (k : Fin 32768) (h : Fin 1024) :
    (V1 m ρ c main_arg1 : S32768x1024.Idx → EReal) (ix2 k h) = (m ((c : Thread nD τ).loc main_arg1) : S32768x1024.Idx → EReal) (ix2 k h) :=
  -- no host operation writes the bank
  congrFun (W1_of_not_written m ρ c main_arg1 (by decide)) (ix2 k h)
theorem wk_apply (c : Dev nD) (h : Fin 1024) (j : Fin 512) :
    (V1 m ρ c main_v1 : S1024x512.Idx → EReal) (ix2 h j) = (m ((c : Thread nD τ).loc main_arg2) : S1024x512.Idx → EReal) (ix2 h j) := by
  -- the narrowed key weights are the format change of the key weights, the identity on extended reals
  show StableHlo.after hostOps0 (W0 m ρ c) (Proc.devRef .tc main_v1) (ix2 h j) = _
  after_results
  rfl
theorem wv_apply (c : Dev nD) (h : Fin 1024) (e : Fin 1024) :
    (V1 m ρ c main_v2 : S1024x1024.Idx → EReal) (ix2 h e) = (m ((c : Thread nD τ).loc main_arg4) : S1024x1024.Idx → EReal) (ix2 h e) := by
  -- the narrowed value weights are the format change of the value weights, the identity on extended reals
  show StableHlo.after hostOps0 (W0 m ρ c) (Proc.devRef .tc main_v2) (ix2 h e) = _
  after_results
  rfl
theorem bk_apply (c : Dev nD) (j : Fin 512) :
    (V1 m ρ c main_v3 : S1x512.Idx → EReal) (ix2 (0 : Fin 1) j) = (m ((c : Thread nD τ).loc main_arg3) : S512.Idx → EReal) (ix1 j) := by
  -- the key bias row is the key bias reshaped: position 0 * 512 + j of the row is position j of the vector
  show StableHlo.after hostOps0 (W0 m ρ c) (Proc.devRef .tc main_v3) (ix2 (0 : Fin 1) j) = _
  after_results
  exact shapeCast_apply (s := S512) (t := S1x512) _ shapeCasts_S512_S1x512 (ix2 (0 : Fin 1) j) (ix1 j) (by
    rw [Shape.rowMajor_val_one, Shape.rowMajor_val_two]
    show j.val = 0 * 512 + j.val
    omega)
theorem bv_apply (c : Dev nD) (e : Fin 1024) :
    (V1 m ρ c main_v4 : S1x1024.Idx → EReal) (ix2 (0 : Fin 1) e) = (m ((c : Thread nD τ).loc main_arg5) : S1024.Idx → EReal) (ix1 e) := by
  -- the value bias row is the value bias reshaped: position 0 * 1024 + e of the row is position e of the vector
  show StableHlo.after hostOps0 (W0 m ρ c) (Proc.devRef .tc main_v4) (ix2 (0 : Fin 1) e) = _
  after_results
  exact shapeCast_apply (s := S1024) (t := S1x1024) _ shapeCasts_S1024_S1x1024 (ix2 (0 : Fin 1) e) (ix1 e) (by
    rw [Shape.rowMajor_val_one, Shape.rowMajor_val_two]
    show e.val = 0 * 1024 + e.val
    omega)
theorem q_apply (c : Dev nD) (b : Fin 4) (s : Fin 2048) (j : Fin 512) :
    (V1 m ρ c main_v0 : S8192x512.Idx → EReal) (ix2 (⟨b.val * 2048 + s.val, by omega⟩ : Fin 8192) j)
      = (m ((c : Thread nD τ).loc main_arg0) : S4x2048x512.Idx → EReal) (ix3 b s j) := by
  -- the flattened queries are the queries reshaped: row 2048 * b + s of the flat array is row s of batch b, both at
  -- row-major position (2048 * b + s) * 512 + j
  show StableHlo.after hostOps0 (W0 m ρ c) (Proc.devRef .tc main_v0)
    (ix2 (⟨b.val * 2048 + s.val, by omega⟩ : Fin 8192) j) = _
  after_results
  exact shapeCast_apply (s := S4x2048x512) (t := S8192x512) _ shapeCasts_S4x2048x512_S8192x512
    (ix2 (⟨b.val * 2048 + s.val, by omega⟩ : Fin 8192) j) (ix3 b s j) (by
    rw [Shape.rowMajor_val_three, Shape.rowMajor_val_two]
    show (b.val * 2048 + s.val) * 512 + j.val = (b.val * 2048 + s.val) * 512 + j.val
    rfl)
theorem out_apply (c : Dev nD) (b : Fin 4) (s : Fin 2048) (e : Fin 1024) :
    (W4 m ρ c (Proc.devRef .tc main_v7) : S4x2048x1024.Idx → EReal) (ix3 b s e)
      = (V3 m ρ c main_v6 : S8192x1024.Idx → EReal) (ix2 (⟨b.val * 2048 + s.val, by omega⟩ : Fin 8192) e) := by
  -- the result is region 1's output array reshaped: row s of batch b is row 2048 * b + s of the flat array, both at
  -- row-major position (2048 * b + s) * 1024 + e
  show StableHlo.after hostOps2 (W3 m ρ c) (Proc.devRef .tc main_v7) (ix3 b s e) = _
  after_results
  exact shapeCast_apply (s := S8192x1024) (t := S4x2048x1024) _ shapeCasts_S8192x1024_S4x2048x1024
    (ix3 b s e) (ix2 (⟨b.val * 2048 + s.val, by omega⟩ : Fin 8192) e) (by
    rw [Shape.rowMajor_val_two, Shape.rowMajor_val_three]
    show (b.val * 2048 + s.val) * 1024 + e.val = (b.val * 2048 + s.val) * 1024 + e.val
    rfl)

end Cert.KernelIdeal.Fr

end
-- ==== Proof.KiValue0.lean ====
/-
  What region 0 leaves in its two output arrays, index by index, at the ideal instance:
  keys k j = (∑ h, bank k h · Wk h j) + bk j,  values k e = (∑ h, bank k h · Wv h e) + bv e,
  for the arrays as the region finds them. Point t writes rows 1024·t … 1024·t + 1023 of both arrays, the 32 points
  cover them, and the body's block is the matrix product of the bank block with the whole weight matrix plus the bias
  row broadcast down the rows; a block of the product is the product of the block of rows.
-/
import proofs.«426837_j37864431681794_3_alg».proof.Proof.KiRegion0
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open ValueIdx

/-! ## The body's two payloads, read at an index

A block's product with a whole weight matrix, the contraction over the 1024 bank columns re-indexed by its one
coordinate, plus the bias row read on its unit axis at 0. Format changes are the identity on extended reals. -/

section Payload

theorem k0_lhsK_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem k0_lhsK_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem k0_rhsK_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem k0_rhsK_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The keys payload at (p, q): row p of the bank block against column q of the key weights, plus the bias at q. -/
theorem k0_pay2_apply (x0 : Vec Ideal S1024x1024 .f32) (x1 : Vec Ideal S1024x512 .bf16) (x2 : Vec Ideal S1x512 .f32)
    (p : Fin 1024) (q : Fin 512) :
    k0_pay2 x0 x1 x2 (ix2 p q) = (∑ h : Fin 1024, x0 (ix2 p h) * x1 (ix2 h q)) + x2 (ix2 (0 : Fin 1) q) := by
  unfold k0_pay2 k0_pay1
  show (addf (F := Ideal) (matmul (F := Ideal) dot_S1024x1024_S1024x512_S1024x512_1_0_0_1_n_n none (truncf (F := Ideal) .bf16 x0 bitsLt_bf16_f32)
      (shapeCast S1024x512 x1 shapeCasts_S1024x512_S1024x512) (constant (F := Ideal) S1024x512 .f32 0x00000000#32))
      (broadcastTo S1024x512 (shapeCast S1x512 x2 shapeCasts_S1x512_S1x512) broadcasts_S1x512_S1024x512)) (ix2 p q) = _
  rw [shapeCast_self, shapeCast_self, addf_apply]
  have hb : broadcastTo S1024x512 x2 broadcasts_S1x512_S1024x512 (ix2 p q) = x2 (ix2 (0 : Fin 1) q) :=
    broadcastTo_apply x2 broadcasts_S1x512_S1024x512 (ix2 p q) (ix2 (0 : Fin 1) q) (fun a => match a with
      | ⟨0, _⟩ => by show 0 = if (1 : Nat) = 1 then 0 else p.val; rw [if_pos rfl]
      | ⟨1, _⟩ => by show q.val = if (512 : Nat) = 1 then 0 else q.val; rw [if_neg (by decide)])
  rw [hb]
  refine congrArg (· + x2 (ix2 (0 : Fin 1) q)) ?_
  simp only [matmul]
  rw [Ideal.matmul_constant_zero_apply, ← Equiv.sum_comp (ValueIdx.contrEquiv1 dot_S1024x1024_S1024x512_S1024x512_1_0_0_1_n_n 1024 rfl rfl).symm]
  refine Finset.sum_congr rfl fun k _ => ?_
  have hk := ValueIdx.contrEquiv1_symm_val dot_S1024x1024_S1024x512_S1024x512_1_0_0_1_n_n 1024 rfl rfl k
  have el : dot_S1024x1024_S1024x512_S1024x512_1_0_0_1_n_n.lhsIdx (ix2 p q) ((ValueIdx.contrEquiv1 dot_S1024x1024_S1024x512_S1024x512_1_0_0_1_n_n 1024 rfl rfl).symm k) = ix2 p k := funext fun a => Fin.ext (by
    match a with
    | ⟨0, _⟩ => exact k0_lhsK_0 _ _
    | ⟨1, _⟩ => exact (k0_lhsK_1 _ _).trans hk)
  have er : dot_S1024x1024_S1024x512_S1024x512_1_0_0_1_n_n.rhsIdx (ix2 p q) ((ValueIdx.contrEquiv1 dot_S1024x1024_S1024x512_S1024x512_1_0_0_1_n_n 1024 rfl rfl).symm k) = ix2 k q := funext fun a => Fin.ext (by
    match a with
    | ⟨0, _⟩ => exact (k0_rhsK_0 _ _).trans hk
    | ⟨1, _⟩ => exact k0_rhsK_1 _ _)
  rw [el, er]
  rfl

theorem k0_lhsV_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem k0_lhsV_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem k0_rhsV_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem k0_rhsV_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The values payload at (p, q): row p of the bank block against column q of the value weights, plus the bias at q. -/
theorem k0_pay3_apply (x0 : Vec Ideal S1024x1024 .f32) (x1 : Vec Ideal S1024x1024 .bf16) (x2 : Vec Ideal S1x1024 .f32)
    (p : Fin 1024) (q : Fin 1024) :
    k0_pay3 x0 x1 x2 (ix2 p q) = (∑ h : Fin 1024, x0 (ix2 p h) * x1 (ix2 h q)) + x2 (ix2 (0 : Fin 1) q) := by
  unfold k0_pay3 k0_pay1
  show (addf (F := Ideal) (matmul (F := Ideal) dot_S1024x1024_S1024x1024_S1024x1024_1_0_0_1_n_n none (truncf (F := Ideal) .bf16 x0 bitsLt_bf16_f32)
      (shapeCast S1024x1024 x1 shapeCasts_S1024x1024_S1024x1024) (constant (F := Ideal) S1024x1024 .f32 0x00000000#32))
      (broadcastTo S1024x1024 (shapeCast S1x1024 x2 shapeCasts_S1x1024_S1x1024) broadcasts_S1x1024_S1024x1024)) (ix2 p q) = _
  rw [shapeCast_self, shapeCast_self, addf_apply]
  have hb : broadcastTo S1024x1024 x2 broadcasts_S1x1024_S1024x1024 (ix2 p q) = x2 (ix2 (0 : Fin 1) q) :=
    broadcastTo_apply x2 broadcasts_S1x1024_S1024x1024 (ix2 p q) (ix2 (0 : Fin 1) q) (fun a => match a with
      | ⟨0, _⟩ => by show 0 = if (1 : Nat) = 1 then 0 else p.val; rw [if_pos rfl]
      | ⟨1, _⟩ => by show q.val = if (1024 : Nat) = 1 then 0 else q.val; rw [if_neg (by decide)])
  rw [hb]
  refine congrArg (· + x2 (ix2 (0 : Fin 1) q)) ?_
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact k0_lhsV_0 _ _
    | ⟨1, _⟩ => exact (k0_lhsV_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (k0_rhsV_0 _ _).trans hk
    | ⟨1, _⟩ => exact k0_rhsV_1 _ _)
  rw [el, er]
  rfl

end Payload
variable (V : (c : Dev nD) → (b : Ref sig .tc) → Buf (Elt Ideal) ((c : Thread nD τ).loc b))

/-- The arrays region 0 reads and writes, as the region finds them, each at its literal shape. -/
abbrev bankA (c : Dev nD) : S32768x1024.Idx → EReal := V c main_arg1
abbrev wkA (c : Dev nD) : S1024x512.Idx → EReal := V c main_v1
abbrev bkA (c : Dev nD) : S1x512.Idx → EReal := V c main_v3
abbrev wvA (c : Dev nD) : S1024x1024.Idx → EReal := V c main_v2
abbrev bvA (c : Dev nD) : S1x1024.Idx → EReal := V c main_v4
/-- The two output arrays after the region's last write-back. -/
abbrev keysA (c : Dev nD) : S32768x512.Idx → EReal := (dat0 (F := Ideal) V c).arrAt 5 cfg0.N
abbrev valsA (c : Dev nD) : S32768x1024.Idx → EReal := (dat0 (F := Ideal) V c).arrAt 6 cfg0.N

/-! ## Region 0's blocks and the keys array -/

theorem k0_hz2 : (![0, 0] : Fin 2 → Nat) = fun _ => 0 := funext fun a => by fin_cases a <;> rfl

/-- One store over the whole buffer leaves its payload, of the whole input buffers. -/
theorem out0_5_eq (x0 : Vec Ideal S1024x1024 .f32) (x1 : Vec Ideal S1024x512 .bf16) (x2 : Vec Ideal S1x512 .f32) :
    out0_5 x0 x1 x2 = k0_pay2 x0 x1 x2 := by
  unfold out0_5
  rw [View.canon_unit_zero k0_hz2]
  simp only [View.ld_unit_zero (S := S1024x1024) k0_hz2, View.ld_unit_zero (S := S1024x512) k0_hz2, View.ld_unit_zero (S := S1x512) k0_hz2]

/-- The printed index maps, decided over the 32 points: the bank and the two outputs move one block of rows per
    point, the weights and biases stay at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row p of point t's block is row 1024·t + p of the array. -/
abbrev k0_rowAt (t : Fin cfg0.N) (p : Fin 1024) : Fin 32768 :=
  ⟨t.val * 1024 + p.val, by have ht : t.val < 32 := t.isLt; have := p.isLt; omega⟩

/-- The bank block of point t is rows 1024·t … of the bank. -/
theorem iblk0_0_apply (c : Dev nD) (t : Fin cfg0.N) (p h : Fin 1024) :
    (iblk0 (F := Ideal) V c 0 t : S1024x1024.Idx → EReal) (ix2 p h) = bankA V c (ix2 (k0_rowAt t p) h) := by
  obtain ⟨e00, e01, -⟩ := idx_facts0 t
  show V c main_arg1 (((cfg0.win 0).blk t).view.emb (ix2 p h)) = V c main_arg1 (ix2 (k0_rowAt t p) h)
  refine congrArg (V c main_arg1) (funext fun a => Fin.ext ?_)
  match a with
  | ⟨0, _⟩ => show win0_0.index t (0 : Fin 2) * 1024 + 1 * p.val = t.val * 1024 + p.val; omega
  | ⟨1, _⟩ => show win0_0.index t (1 : Fin 2) * 1024 + 1 * h.val = h.val; omega

/-- The key-weights block of every point is the whole matrix. -/
theorem iblk0_1_apply (c : Dev nD) (t : Fin cfg0.N) (h : Fin 1024) (q : Fin 512) :
    (iblk0 (F := Ideal) V c 1 t : S1024x512.Idx → EReal) (ix2 h q) = wkA V c (ix2 h q) := by
  obtain ⟨-, -, e10, e11, -⟩ := idx_facts0 t
  show V c main_v1 (((cfg0.win 1).blk t).view.emb (ix2 h q)) = V c main_v1 (ix2 h q)
  refine congrArg (V c main_v1) (funext fun a => Fin.ext ?_)
  match a with
  | ⟨0, _⟩ => show win0_1.index t (0 : Fin 2) * 1024 + 1 * h.val = h.val; omega
  | ⟨1, _⟩ => show win0_1.index t (1 : Fin 2) * 512 + 1 * q.val = q.val; omega

/-- The key-bias block of every point is the whole row. -/
theorem iblk0_2_apply (c : Dev nD) (t : Fin cfg0.N) (z : Fin 1) (q : Fin 512) :
    (iblk0 (F := Ideal) V c 2 t : S1x512.Idx → EReal) (ix2 z q) = bkA V c (ix2 z q) := by
  obtain ⟨-, -, -, -, e20, e21, -⟩ := idx_facts0 t
  show V c main_v3 (((cfg0.win 2).blk t).view.emb (ix2 z q)) = V c main_v3 (ix2 z q)
  refine congrArg (V c main_v3) (funext fun a => Fin.ext ?_)
  match a with
  | ⟨0, _⟩ => show win0_2.index t (0 : Fin 2) * 1 + 1 * z.val = z.val; omega
  | ⟨1, _⟩ => show win0_2.index t (1 : Fin 2) * 512 + 1 * q.val = q.val; omega

/-- The keys array as one function of the arrays the region finds: row i₀ of the bank against column i₁ of the key
    weights, plus the bias at i₁. -/
abbrev k0_G5 (c : Dev nD) : S32768x512.Idx → EReal := fun i =>
  (∑ h : Fin 1024, bankA V c (ix2 (i 0) h) * wkA V c (ix2 h (i 1))) + bkA V c (ix2 (0 : Fin 1) (i 1))

/-- What point t writes back to the keys array is block t of that function. -/
theorem k0_flushed5_eq (c : Dev nD) (t : Fin cfg0.N) :
    (dat0 (F := Ideal) V c).flushed 5 t = ((cfg0.win 5).blk t).view.read (Elt Ideal) (k0_G5 V c) := by
  show (cfg0.win 5).cut (grid0.coords t) ((dat0 (F := Ideal) V c).after 5 t) = _
  rw [after0_5, out0_5_eq]
  obtain ⟨-, -, -, -, -, -, -, -, -, -, e50, e51, -⟩ := idx_facts0 t
  funext j
  have hp : (j 0).val < 1024 := (j 0).isLt
  have hq : (j 1).val < 512 := (j 1).isLt
  have ej : (cfg0.win 5).xinj (grid0.coords t) j = ix2 (⟨(j 0).val, hp⟩ : Fin 1024) (⟨(j 1).val, hq⟩ : Fin 512) :=
    funext fun a => Fin.ext (by match a with | ⟨0, _⟩ => rfl | ⟨1, _⟩ => rfl)
  have ee : ((cfg0.win 5).blk t).view.emb j = ix2 (k0_rowAt t ⟨(j 0).val, hp⟩) (⟨(j 1).val, hq⟩ : Fin 512) :=
    funext fun a => Fin.ext (by
      match a with
      | ⟨0, _⟩ => show win0_5.index t (0 : Fin 2) * 1024 + 1 * (j 0).val = t.val * 1024 + (j 0).val; omega
      | ⟨1, _⟩ => show win0_5.index t (1 : Fin 2) * 512 + 1 * (j 1).val = (j 1).val; omega)
  show k0_pay2 (iblk0 V c 0 t) (iblk0 V c 1 t) (iblk0 V c 2 t) ((cfg0.win 5).xinj (grid0.coords t) j)
    = k0_G5 V c (((cfg0.win 5).blk t).view.emb j)
  rw [ej, ee, k0_pay2_apply, iblk0_2_apply]
  simp only [iblk0_0_apply, iblk0_1_apply]

/-- An index of the keys array is in point t's block iff each coordinate is in the block's range on its axis. -/
theorem k0_mem_blk5 (t : Fin cfg0.N) (i : S32768x512.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v5_0).slice (win0_5.rect t)).set ↔ _
  rw [View.set_slice_whole, Rect.mem_set_unit]
  exact Iff.rfl

/-- Row r of the keys array is in the block of point r / 1024, which writes it back. -/
theorem k0_cover5 (i : S32768x512.Idx) :
    ∃ t : Fin cfg0.N, (cfg0.win 5).flush t = true ∧ i ∈ ((cfg0.win 5).blk t).view.set := by
  have hi0 : (i 0).val < 32768 := (i 0).isLt
  have hi1 : (i 1).val < 512 := (i 1).isLt
  have ht : (i 0).val / 1024 < 32 := by omega
  refine ⟨⟨(i 0).val / 1024, ht⟩, flush0_5 _, ?_⟩
  obtain ⟨-, -, -, -, -, -, -, -, -, -, e50, e51, -⟩ := idx_facts0 ⟨(i 0).val / 1024, ht⟩
  have e50' : win0_5.index ⟨(i 0).val / 1024, ht⟩ (0 : Fin 2) = (i 0).val / 1024 := e50
  rw [k0_mem_blk5]
  intro a
  match a with
  | ⟨0, _⟩ =>
    show win0_5.index ⟨(i 0).val / 1024, ht⟩ (0 : Fin 2) * 1024 ≤ (i 0).val ∧ (i 0).val < win0_5.index ⟨(i 0).val / 1024, ht⟩ (0 : Fin 2) * 1024 + 1024
    omega
  | ⟨1, _⟩ =>
    show win0_5.index ⟨(i 0).val / 1024, ht⟩ (1 : Fin 2) * 512 ≤ (i 1).val ∧ (i 1).val < win0_5.index ⟨(i 0).val / 1024, ht⟩ (1 : Fin 2) * 512 + 512
    omega

theorem keys_apply (c : Dev nD) (k : Fin 32768) (j : Fin 512) :
    keysA V c (ix2 k j) = (∑ h : Fin 1024, bankA V c (ix2 k h) * wkA V c (ix2 h j)) + bkA V c (ix2 (0 : Fin 1) j) := by
  have hfin := (dat0 (F := Ideal) V c).arrAt_eq_of_cover 5 _ (fun t _ => k0_flushed5_eq V c t) k0_cover5
  exact congrFun hfin (ix2 k j)

/-! ## The values array: the same road with the value weights, the value bias and window 6 -/

/-- One store over the whole buffer leaves its payload, of the whole input buffers. -/
theorem out0_6_eq (x0 : Vec Ideal S1024x1024 .f32) (x3 : Vec Ideal S1024x1024 .bf16) (x4 : Vec Ideal S1x1024 .f32) :
    out0_6 x0 x3 x4 = k0_pay3 x0 x3 x4 := by
  unfold out0_6
  rw [View.canon_unit_zero k0_hz2]
  simp only [View.ld_unit_zero (S := S1024x1024) k0_hz2, View.ld_unit_zero (S := S1x1024) k0_hz2]

/-- The value-weights block of every point is the whole matrix. -/
theorem iblk0_3_apply (c : Dev nD) (t : Fin cfg0.N) (h : Fin 1024) (q : Fin 1024) :
    (iblk0 (F := Ideal) V c 3 t : S1024x1024.Idx → EReal) (ix2 h q) = wvA V c (ix2 h q) := by
  obtain ⟨-, -, -, -, -, -, e30, e31, -⟩ := idx_facts0 t
  show V c main_v2 (((cfg0.win 3).blk t).view.emb (ix2 h q)) = V c main_v2 (ix2 h q)
  refine congrArg (V c main_v2) (funext fun a => Fin.ext ?_)
  match a with
  | ⟨0, _⟩ => show win0_3.index t (0 : Fin 2) * 1024 + 1 * h.val = h.val; omega
  | ⟨1, _⟩ => show win0_3.index t (1 : Fin 2) * 1024 + 1 * q.val = q.val; omega

/-- The value-bias block of every point is the whole row. -/
theorem iblk0_4_apply (c : Dev nD) (t : Fin cfg0.N) (z : Fin 1) (q : Fin 1024) :
    (iblk0 (F := Ideal) V c 4 t : S1x1024.Idx → EReal) (ix2 z q) = bvA V c (ix2 z q) := by
  obtain ⟨-, -, -, -, -, -, -, -, e40, e41, -⟩ := idx_facts0 t
  show V c main_v4 (((cfg0.win 4).blk t).view.emb (ix2 z q)) = V c main_v4 (ix2 z q)
  refine congrArg (V c main_v4) (funext fun a => Fin.ext ?_)
  match a with
  | ⟨0, _⟩ => show win0_4.index t (0 : Fin 2) * 1 + 1 * z.val = z.val; omega
  | ⟨1, _⟩ => show win0_4.index t (1 : Fin 2) * 1024 + 1 * q.val = q.val; omega

/-- The values array as one function of the arrays the region finds: row i₀ of the bank against column i₁ of the
    value weights, plus the bias at i₁. -/
abbrev k0_G6 (c : Dev nD) : S32768x1024.Idx → EReal := fun i =>
  (∑ h : Fin 1024, bankA V c (ix2 (i 0) h) * wvA V c (ix2 h (i 1))) + bvA V c (ix2 (0 : Fin 1) (i 1))

/-- What point t writes back to the values array is block t of that function. -/
theorem k0_flushed6_eq (c : Dev nD) (t : Fin cfg0.N) :
    (dat0 (F := Ideal) V c).flushed 6 t = ((cfg0.win 6).blk t).view.read (Elt Ideal) (k0_G6 V c) := by
  show (cfg0.win 6).cut (grid0.coords t) ((dat0 (F := Ideal) V c).after 6 t) = _
  rw [after0_6, out0_6_eq]
  obtain ⟨-, -, -, -, -, -, -, -, -, -, -, -, e60, e61⟩ := idx_facts0 t
  funext j
  have hp : (j 0).val < 1024 := (j 0).isLt
  have hq : (j 1).val < 1024 := (j 1).isLt
  have ej : (cfg0.win 6).xinj (grid0.coords t) j = ix2 (⟨(j 0).val, hp⟩ : Fin 1024) (⟨(j 1).val, hq⟩ : Fin 1024) :=
    funext fun a => Fin.ext (by match a with | ⟨0, _⟩ => rfl | ⟨1, _⟩ => rfl)
  have ee : ((cfg0.win 6).blk t).view.emb j = ix2 (k0_rowAt t ⟨(j 0).val, hp⟩) (⟨(j 1).val, hq⟩ : Fin 1024) :=
    funext fun a => Fin.ext (by
      match a with
      | ⟨0, _⟩ => show win0_6.index t (0 : Fin 2) * 1024 + 1 * (j 0).val = t.val * 1024 + (j 0).val; omega
      | ⟨1, _⟩ => show win0_6.index t (1 : Fin 2) * 1024 + 1 * (j 1).val = (j 1).val; omega)
  show k0_pay3 (iblk0 V c 0 t) (iblk0 V c 3 t) (iblk0 V c 4 t) ((cfg0.win 6).xinj (grid0.coords t) j)
    = k0_G6 V c (((cfg0.win 6).blk t).view.emb j)
  rw [ej, ee, k0_pay3_apply, iblk0_4_apply]
  simp only [iblk0_0_apply, iblk0_3_apply]

/-- An index of the values array is in point t's block iff each coordinate is in the block's range on its axis. -/
theorem k0_mem_blk6 (t : Fin cfg0.N) (i : S32768x1024.Idx) :
    i ∈ ((cfg0.win 6).blk t).view.set ↔ ∀ a : Fin 2, win0_6.index t a * S1024x1024.size a ≤ (i a).val ∧ (i a).val < win0_6.index t a * S1024x1024.size a + S1024x1024.size a := by
  show i ∈ ((View.whole main_v5_1).slice (win0_6.rect t)).set ↔ _
  rw [View.set_slice_whole, Rect.mem_set_unit]
  exact Iff.rfl

/-- Row r of the values array is in the block of point r / 1024, which writes it back. -/
theorem k0_cover6 (i : S32768x1024.Idx) :
    ∃ t : Fin cfg0.N, (cfg0.win 6).flush t = true ∧ i ∈ ((cfg0.win 6).blk t).view.set := by
  have hi0 : (i 0).val < 32768 := (i 0).isLt
  have hi1 : (i 1).val < 1024 := (i 1).isLt
  have ht : (i 0).val / 1024 < 32 := by omega
  refine ⟨⟨(i 0).val / 1024, ht⟩, flush0_6 _, ?_⟩
  obtain ⟨-, -, -, -, -, -, -, -, -, -, -, -, e60, e61⟩ := idx_facts0 ⟨(i 0).val / 1024, ht⟩
  have e60' : win0_6.index ⟨(i 0).val / 1024, ht⟩ (0 : Fin 2) = (i 0).val / 1024 := e60
  rw [k0_mem_blk6]
  intro a
  match a with
  | ⟨0, _⟩ =>
    show win0_6.index ⟨(i 0).val / 1024, ht⟩ (0 : Fin 2) * 1024 ≤ (i 0).val ∧ (i 0).val < win0_6.index ⟨(i 0).val / 1024, ht⟩ (0 : Fin 2) * 1024 + 1024
    omega
  | ⟨1, _⟩ =>
    show win0_6.index ⟨(i 0).val / 1024, ht⟩ (1 : Fin 2) * 1024 ≤ (i 1).val ∧ (i 1).val < win0_6.index ⟨(i 0).val / 1024, ht⟩ (1 : Fin 2) * 1024 + 1024
    omega

theorem vals_apply (c : Dev nD) (k : Fin 32768) (e : Fin 1024) :
    valsA V c (ix2 k e) = (∑ h : Fin 1024, bankA V c (ix2 k h) * wvA V c (ix2 h e)) + bvA V c (ix2 (0 : Fin 1) e) := by
  have hfin := (dat0 (F := Ideal) V c).arrAt_eq_of_cover 6 _ (fun t _ => k0_flushed6_eq V c t) k0_cover6
  exact congrFun hfin (ix2 k e)

end Cert.KernelIdeal.Fr

end
-- ==== Proof.LibSoftmaxReal.lean ====
/-
  Real-number and extended-real facts both sides of the comparison use: coercions pushed through finite sums,
  quotients and the exponential; positivity of a sum of exponentials; the shift invariance of a softmax-weighted
  average; a sum over 32768 keys regrouped as 32 tiles of 1024; the maximum of finitely many reals is a real.
-/
import Idealize.ShloMosaic.PureOps.Ideal
import Mathlib.Analysis.SpecialFunctions.Exp
import Mathlib.Algebra.BigOperators.Fin
import Mathlib.Data.EReal.Basic

noncomputable section

namespace Cert.RealLemmas

open Idealize.ShloMosaic

/-- Over any finite set, the coercion of a real sum is the sum of the coercions: the empty sum is zero on both
    sides, and inserting one more key adds one more term, the coercion being additive. -/
theorem coe_sum_finset {K : Type} (S : Finset K) (f : K → ℝ) :
    (((∑ k ∈ S, f k) : ℝ) : EReal) = ∑ k ∈ S, ((f k : ℝ) : EReal) := by
  classical
  refine Finset.induction_on S ?_ ?_
  · rw [Finset.sum_empty, Finset.sum_empty, EReal.coe_zero]
  · intro a s ha ih
    rw [Finset.sum_insert ha, Finset.sum_insert ha, EReal.coe_add, ih]

/-- The coercion of a finite real sum is the sum of the coercions. -/
theorem coe_sum {K : Type} [Fintype K] (f : K → ℝ) : (((∑ k, f k) : ℝ) : EReal) = ∑ k, ((f k : ℝ) : EReal) :=
  coe_sum_finset Finset.univ f

/-- The ideal quotient of two reals with a nonzero divisor is the real quotient. -/
theorem div_coe (x y : ℝ) (hy : y ≠ 0) : Ideal.div (x : EReal) (y : EReal) = (((x / y) : ℝ) : EReal) := by
  rw [Ideal.div_coe hy, ← EReal.coe_mul, mul_one_div]

/-- The ideal exponential of a real is the real exponential. -/
theorem exp_coe (x : ℝ) : Ideal.exp (x : EReal) = ((Real.exp x : ℝ) : EReal) := rfl

/-- A nonempty finite sum of exponentials is positive. -/
theorem sum_exp_pos {K : Type} [Fintype K] [Nonempty K] (f : K → ℝ) : 0 < ∑ k, Real.exp (f k) :=
  Finset.sum_pos (fun k _ => Real.exp_pos (f k)) Finset.univ_nonempty

/-- Shift invariance: weights `exp (s k - M)` normalised by their sum average `v` exactly as the unshifted
    weights `exp (s k)` do, the common factor `exp (-M)` cancelling. -/
theorem softmax_shift {K : Type} [Fintype K] [Nonempty K] (s v : K → ℝ) (M : ℝ) :
    ∑ k, (Real.exp (s k - M) / ∑ j, Real.exp (s j - M)) * v k
      = (∑ k, Real.exp (s k) * v k) / ∑ k, Real.exp (s k) := by
  -- every shifted weight is the unshifted one times the common positive factor `exp (-M)`
  have hc : Real.exp (-M) ≠ 0 := (Real.exp_pos (-M)).ne'
  have hshift : ∀ k, Real.exp (s k - M) = Real.exp (s k) * Real.exp (-M) := fun k => by
    rw [sub_eq_add_neg, Real.exp_add]
  -- so the shifted normaliser is the unshifted one times the same factor
  have hden : ∑ j, Real.exp (s j - M) = (∑ j, Real.exp (s j)) * Real.exp (-M) := by
    rw [Finset.sum_mul]
    exact Finset.sum_congr rfl (fun j _ => hshift j)
  -- the factor cancels in each term, and the common denominator comes out of the sum
  rw [hden, Finset.sum_div]
  refine Finset.sum_congr rfl (fun k _ => ?_)
  rw [hshift k, mul_div_mul_right _ _ hc, div_mul_eq_mul_div]

/-- A sum over 32768 keys, taken tile by tile: 32 tiles of 1024 consecutive keys. -/
theorem sum_tiles (f : Fin 32768 → ℝ) :
    ∑ t : Fin 32, ∑ r : Fin 1024, f ⟨t.val * 1024 + r.val, by omega⟩ = ∑ k : Fin 32768, f k := by
  -- the double sum is a single sum over pairs (tile, offset) ...
  refine (Fintype.sum_prod_type'
    (fun (t : Fin 32) (r : Fin 1024) => f ⟨t.val * 1024 + r.val, by omega⟩)).symm.trans ?_
  -- ... and pairs correspond one to one to keys, the pair (t, r) to the key r + 1024 * t
  refine Fintype.sum_equiv (finProdFinEquiv : Fin 32 × Fin 1024 ≃ Fin (32 * 1024)) _ _ ?_
  rintro ⟨t, r⟩
  refine congrArg f (Fin.ext ?_)
  show t.val * 1024 + r.val = r.val + 1024 * t.val
  omega

/-- The running maximum from `⊥` over any finite family of reals is `⊥` or a real: it is `⊥` over the empty
    family, and one more real `x` turns `⊥` into `x` and a real `M` into the larger of `x` and `M`. -/
theorem fold_max_bot_or_coe {K : Type} (S : Finset K) (g : K → ℝ) :
    S.fold max (⊥ : EReal) (fun k => ((g k : ℝ) : EReal)) = ⊥
      ∨ ∃ M : ℝ, S.fold max (⊥ : EReal) (fun k => ((g k : ℝ) : EReal)) = (M : EReal) := by
  classical
  refine Finset.induction_on S ?_ ?_
  · exact Or.inl Finset.fold_empty
  · intro a s ha ih
    refine Or.inr ?_
    rw [Finset.fold_insert ha]
    rcases ih with h | ⟨M, h⟩
    · exact ⟨g a, by rw [h]; exact max_eq_left bot_le⟩
    · rcases le_total ((g a : ℝ) : EReal) (M : EReal) with hle | hle
      · exact ⟨M, by rw [h]; exact max_eq_right hle⟩
      · exact ⟨g a, by rw [h]; exact max_eq_left hle⟩

/-- Over a family with at least one member the running maximum is a real: split off one member `a`; the
    maximum over the rest is `⊥` or a real, and the larger of the real `g a` and either is a real. -/
theorem fold_max_insert_coe {K : Type} [DecidableEq K] (a : K) (s : Finset K) (ha : a ∉ s) (g : K → ℝ) :
    ∃ M : ℝ, (insert a s).fold max (⊥ : EReal) (fun k => ((g k : ℝ) : EReal)) = (M : EReal) := by
  rw [Finset.fold_insert ha]
  rcases fold_max_bot_or_coe s g with h | ⟨M, h⟩
  · exact ⟨g a, by rw [h]; exact max_eq_left bot_le⟩
  · rcases le_total ((g a : ℝ) : EReal) (M : EReal) with hle | hle
    · exact ⟨M, by rw [h]; exact max_eq_right hle⟩
    · exact ⟨g a, by rw [h]; exact max_eq_left hle⟩

/-- The running maximum from `⊥` over a nonempty finite family of reals is a real. -/
theorem fold_max_coe {n : ℕ} (f : Fin (n + 1) → ℝ) :
    ∃ M : ℝ, (Finset.univ : Finset (Fin (n + 1))).fold max (⊥ : EReal) (fun k => ((f k : ℝ) : EReal)) = (M : EReal) := by
  -- the whole index set is the index 0 together with the rest
  have huniv : (Finset.univ : Finset (Fin (n + 1))) = insert 0 (Finset.univ.erase 0) :=
    (Finset.insert_erase (Finset.mem_univ 0)).symm
  rw [huniv]
  exact fold_max_insert_coe 0 (Finset.univ.erase 0) (Finset.notMem_erase 0 Finset.univ) f

end Cert.RealLemmas

end
-- ==== Proof.KiValue1.lean ====
/-
  What region 1 leaves in its output array, index by index, at the ideal instance, when its three input arrays hold
  real numbers: row n of the output is the value rows averaged with weights exp (score n k), normalised by their sum,
      out n e = (∑ k, exp (∑ j, q n j · K k j) · V k e) / (∑ k, exp (∑ j, q n j · K k j)).
  The scratch pair (l, acc) after point (i, kv) holds, for the query rows of tile i, the sums over the keys of tiles
  0 … kv (induction along a row of the grid, from zeros); at kv = 31 that is the sum over all 32768 keys, the stored
  block is acc / l with l a positive real, and the 8 written-back blocks cover the output array.
-/
import proofs.«426837_j37864431681794_3_alg».proof.Proof.KiRegion1
import proofs.«426837_j37864431681794_3_alg».proof.Proof.LibSoftmaxReal
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open ValueIdx

namespace Value1

/-! ## The dot records' operand indices, axis by axis -/

theorem qk_lhs_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem qk_lhs_1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
theorem qk_rhs_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem qk_rhs_1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

theorem pv_lhs_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem pv_lhs_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem pv_rhs_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem pv_rhs_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-! ## The body's payloads at the ideal instance, read at an index -/

/-- The score matrix product into the zero constant: entry (r, c') is the inner product of row r of the
    query block with row c' of the key block (both operands are contracted on their last axis). -/
theorem qk_apply (x : S1024x512.Idx → EReal) (y : S1024x512.Idx → EReal) (r c' : Fin 1024) :
    FloatOps.matmul (F := Ideal) (φ₁ := .bf16) (φ₂ := .bf16) dot_S1024x512_S1024x512_S1024x1024_1_1_0_0_n_n none x y
        (constant S1024x1024 .f32 0x00000000#32) (ix2 r c')
      = ∑ j : Fin 512, x (ix2 r j) * y (ix2 c' j) := by
  rw [Ideal.matmul_constant_zero_apply,
    ← Equiv.sum_comp (ValueIdx.contrEquiv1 dot_S1024x512_S1024x512_S1024x1024_1_1_0_0_n_n 512 rfl rfl).symm]
  refine Finset.sum_congr rfl fun j _ => ?_
  have hj := ValueIdx.contrEquiv1_symm_val dot_S1024x512_S1024x512_S1024x1024_1_1_0_0_n_n 512 rfl rfl j
  have el : dot_S1024x512_S1024x512_S1024x1024_1_1_0_0_n_n.lhsIdx (ix2 r c')
      ((ValueIdx.contrEquiv1 dot_S1024x512_S1024x512_S1024x1024_1_1_0_0_n_n 512 rfl rfl).symm j) = ix2 r j :=
    funext fun a => Fin.ext (by
      match a with
      | ⟨0, _⟩ => exact qk_lhs_0 _ _
      | ⟨1, _⟩ => exact (qk_lhs_1 _ _).trans hj)
  have er : dot_S1024x512_S1024x512_S1024x1024_1_1_0_0_n_n.rhsIdx (ix2 r c')
      ((ValueIdx.contrEquiv1 dot_S1024x512_S1024x512_S1024x1024_1_1_0_0_n_n 512 rfl rfl).symm j) = ix2 c' j :=
    funext fun a => Fin.ext (by
      match a with
      | ⟨0, _⟩ => exact qk_rhs_0 _ _
      | ⟨1, _⟩ => exact (qk_rhs_1 _ _).trans hj)
  rw [el, er]

/-- The weights-times-values matrix product into the zero constant: entry (r, e) sums over the key index. -/
theorem pv_apply (x : S1024x1024.Idx → EReal) (y : S1024x1024.Idx → EReal) (r e : Fin 1024) :
    FloatOps.matmul (F := Ideal) (φ₁ := .bf16) (φ₂ := .bf16) dot_S1024x1024_S1024x1024_S1024x1024_1_0_0_1_n_n none x y
        (constant S1024x1024 .f32 0x00000000#32) (ix2 r e)
      = ∑ c' : Fin 1024, x (ix2 r c') * y (ix2 c' e) := by
  rw [Ideal.matmul_constant_zero_apply,
    ← Equiv.sum_comp (ValueIdx.contrEquiv1 dot_S1024x1024_S1024x1024_S1024x1024_1_0_0_1_n_n 1024 rfl rfl).symm]
  refine Finset.sum_congr rfl fun j _ => ?_
  have hj := ValueIdx.contrEquiv1_symm_val dot_S1024x1024_S1024x1024_S1024x1024_1_0_0_1_n_n 1024 rfl rfl j
  have el : dot_S1024x1024_S1024x1024_S1024x1024_1_0_0_1_n_n.lhsIdx (ix2 r e)
      ((ValueIdx.contrEquiv1 dot_S1024x1024_S1024x1024_S1024x1024_1_0_0_1_n_n 1024 rfl rfl).symm j) = ix2 r j :=
    funext fun a => Fin.ext (by
      match a with
      | ⟨0, _⟩ => exact pv_lhs_0 _ _
      | ⟨1, _⟩ => exact (pv_lhs_1 _ _).trans hj)
  have er : dot_S1024x1024_S1024x1024_S1024x1024_1_0_0_1_n_n.rhsIdx (ix2 r e)
      ((ValueIdx.contrEquiv1 dot_S1024x1024_S1024x1024_S1024x1024_1_0_0_1_n_n 1024 rfl rfl).symm j) = ix2 j e :=
    funext fun a => Fin.ext (by
      match a with
      | ⟨0, _⟩ => exact (pv_rhs_0 _ _).trans hj
      | ⟨1, _⟩ => exact pv_rhs_1 _ _)
  rw [el, er]

/-- The exp-score block: entry (r, c') is exp of the inner product of query row r and key row c'
    (the format changes and same-shape casts are the identity on extended reals). -/
theorem pay3_apply (q : S1024x512.Idx → EReal) (k : S1024x512.Idx → EReal) (r c' : Fin 1024) :
    k1_pay3 (F := Ideal) q k (ix2 r c') = Ideal.exp (∑ j : Fin 512, q (ix2 r j) * k (ix2 c' j)) := by
  unfold k1_pay3
  simp only [shapeCast_self]
  exact congrArg Ideal.exp (qk_apply q k r c')

/-- The running normaliser: the old one plus the row sum of the exp-score block. -/
theorem pay4_apply (q : S1024x512.Idx → EReal) (k : S1024x512.Idx → EReal) (l : S1024x1.Idx → EReal) (r : Fin 1024) :
    k1_pay4 (F := Ideal) q k l (ix2 r (0 : Fin 1))
      = l (ix2 r (0 : Fin 1)) + ∑ c' : Fin 1024, k1_pay3 (F := Ideal) q k (ix2 r c') := by
  unfold k1_pay4
  generalize k1_pay3 (F := Ideal) q k = P
  simp only [shapeCast_self]
  refine congrArg (l (ix2 r (0 : Fin 1)) + ·) ?_
  rw [shapeCast_apply _ shapeCasts_S1024_S1024x1 (ix2 r (0 : Fin 1)) (ix1 r)
    (by rw [Shape.rowMajor_val_one, Shape.rowMajor_val_two]; show r.val = r.val * 1 + 0; omega)]
  refine (Ideal.multiReduction_add_single P _ reduces_S1024x1024_S1024 _ _ (ix1 r)).trans ?_
  refine Finset.sum_congr rfl fun c' _ => congrArg P (funext fun a => Fin.ext ?_)
  match a with
  | ⟨0, _⟩ => rfl
  | ⟨1, _⟩ => rfl

/-- The running weighted sum: the old one plus the exp-score block times the value block. -/
theorem pay5_apply (q : S1024x512.Idx → EReal) (k : S1024x512.Idx → EReal) (v : S1024x1024.Idx → EReal)
    (acc : S1024x1024.Idx → EReal) (r e : Fin 1024) :
    k1_pay5 (F := Ideal) q k v acc (ix2 r e)
      = acc (ix2 r e) + ∑ c' : Fin 1024, k1_pay3 (F := Ideal) q k (ix2 r c') * v (ix2 c' e) := by
  unfold k1_pay5
  generalize k1_pay3 (F := Ideal) q k = P
  simp only [shapeCast_self]
  exact congrArg (acc (ix2 r e) + ·) (pv_apply P v r e)

/-- The stored quotient: each entry of the weighted sum over its row's normaliser. -/
theorem pay6_apply (acc : S1024x1024.Idx → EReal) (l : S1024x1.Idx → EReal) (r e : Fin 1024) :
    k1_pay6 (F := Ideal) acc l (ix2 r e) = Ideal.div (acc (ix2 r e)) (l (ix2 r (0 : Fin 1))) := by
  unfold k1_pay6
  refine congrArg (Ideal.div (acc (ix2 r e))) ?_
  exact broadcastTo_apply l broadcasts_S1024x1_S1024x1024 (ix2 r e) (ix2 r (0 : Fin 1)) (fun a => match a with
    | ⟨0, _⟩ => by show r.val = if (1024 : ℕ) = 1 then 0 else r.val; rw [if_neg (by decide)]
    | ⟨1, _⟩ => by show 0 = if (1 : ℕ) = 1 then 0 else e.val; rw [if_pos rfl])

/-- The two reset values are zero everywhere. -/
theorem pay1_apply (i : S1024x1.Idx) : k1_pay1 (F := Ideal) i = 0 := by
  unfold k1_pay1
  simp only [shapeCast_self]
  exact Ideal.ofBits_zero_f32
theorem pay2_apply (i : S1024x1024.Idx) : k1_pay2 (F := Ideal) i = 0 := by
  unfold k1_pay2
  simp only [shapeCast_self]
  exact Ideal.ofBits_zero_f32

/-! ## Real partial sums over the keys, tile by tile -/

/-- The sum of a sequence over its first `m` tiles of 1024 terms. -/
def psum (f : ℕ → ℝ) (m : ℕ) : ℝ := ∑ k ∈ Finset.range (m * 1024), f k

theorem psum_zero (f : ℕ → ℝ) : psum f 0 = 0 := by
  unfold psum
  rw [Nat.zero_mul, Finset.range_zero, Finset.sum_empty]

/-- One more tile adds the tile's 1024 terms. -/
theorem psum_succ (f : ℕ → ℝ) (m : ℕ) : psum f (m + 1) = psum f m + ∑ c' : Fin 1024, f (m * 1024 + c'.val) := by
  unfold psum
  rw [Nat.succ_mul, Finset.sum_range_add, Finset.sum_range (fun x => f (m * 1024 + x))]

/-- The softmax weight of key `k` for query row `n`, the keys numbered by natural numbers (zero past the last key). -/
def wt (qR : Fin 8192 → Fin 512 → ℝ) (KR : Fin 32768 → Fin 512 → ℝ) (n : Fin 8192) (k : ℕ) : ℝ :=
  if h : k < 32768 then Real.exp (∑ j : Fin 512, qR n j * KR ⟨k, h⟩ j) else 0

/-- The weight times the key's value entry `e`. -/
def wv (qR : Fin 8192 → Fin 512 → ℝ) (KR : Fin 32768 → Fin 512 → ℝ) (VR : Fin 32768 → Fin 1024 → ℝ)
    (n : Fin 8192) (e : Fin 1024) (k : ℕ) : ℝ :=
  if h : k < 32768 then Real.exp (∑ j : Fin 512, qR n j * KR ⟨k, h⟩ j) * VR ⟨k, h⟩ e else 0

/-- All 32 tiles: the sum over every key. -/
theorem psum_wt_all (qR : Fin 8192 → Fin 512 → ℝ) (KR : Fin 32768 → Fin 512 → ℝ) (n : Fin 8192) :
    psum (wt qR KR n) 32 = ∑ k : Fin 32768, Real.exp (∑ j : Fin 512, qR n j * KR k j) := by
  unfold psum
  rw [show 32 * 1024 = 32768 from rfl, Finset.sum_range]
  refine Finset.sum_congr rfl fun k _ => ?_
  unfold wt
  rw [dif_pos k.isLt]

theorem psum_wv_all (qR : Fin 8192 → Fin 512 → ℝ) (KR : Fin 32768 → Fin 512 → ℝ) (VR : Fin 32768 → Fin 1024 → ℝ)
    (n : Fin 8192) (e : Fin 1024) :
    psum (wv qR KR VR n e) 32 = ∑ k : Fin 32768, Real.exp (∑ j : Fin 512, qR n j * KR k j) * VR k e := by
  unfold psum
  rw [show 32 * 1024 = 32768 from rfl, Finset.sum_range]
  refine Finset.sum_congr rfl fun k _ => ?_
  unfold wv
  rw [dif_pos k.isLt]

/-! ## The point's blocks, read where they come from -/

variable (V : (c : Dev nD) → (b : Ref sig .tc) → Buf (Elt Ideal) ((c : Thread nD τ).loc b))

/-- The query, key and value blocks of point `t`, each at its literal shape. -/
abbrev qB (c : Dev nD) (t : Fin cfg1.N) : S1024x512.Idx → EReal := iblk1 V c 0 t
abbrev kB (c : Dev nD) (t : Fin cfg1.N) : S1024x512.Idx → EReal := iblk1 V c 1 t
abbrev vB (c : Dev nD) (t : Fin cfg1.N) : S1024x1024.Idx → EReal := iblk1 V c 2 t

/-- The four index maps on the grid: point t = 32·i + kv takes query and output block i, key and value block kv. -/
theorem idx_facts1 : ∀ t : Fin cfg1.N,
    win1_0.index t (0 : Fin 2) = t.val / 32 ∧ win1_0.index t (1 : Fin 2) = 0
    ∧ win1_1.index t (0 : Fin 2) = t.val % 32 ∧ win1_1.index t (1 : Fin 2) = 0
    ∧ win1_2.index t (0 : Fin 2) = t.val % 32 ∧ win1_2.index t (1 : Fin 2) = 0
    ∧ win1_3.index t (0 : Fin 2) = t.val / 32 ∧ win1_3.index t (1 : Fin 2) = 0 :=
  (by decide +kernel : ∀ t : Fin grid1.N, _)

/-- Row r of the query block of point t is query row 1024·(t / 32) + r. -/
theorem qB_real (c : Dev nD) (qR : Fin 8192 → Fin 512 → ℝ)
    (hq : ∀ (n : Fin 8192) (j : Fin 512), (V c main_v0 : S8192x512.Idx → EReal) (ix2 n j) = ((qR n j : ℝ) : EReal))
    (t : Fin cfg1.N) (r : Fin 1024) (j : Fin 512) (n : Fin 8192) (hn : n.val = 1024 * (t.val / 32) + r.val) :
    qB V c t (ix2 r j) = ((qR n j : ℝ) : EReal) := by
  refine Eq.trans ?_ (hq n j)
  unfold qB iblk1
  rw [View.read_apply]
  show V c main_v0 _ = V c main_v0 _
  congr 1
  funext a
  apply Fin.ext
  obtain ⟨e0, e1, -⟩ := idx_facts1 t
  match a with
  | ⟨0, _⟩ => show win1_0.index t (0 : Fin 2) * 1024 + 1 * r.val = n.val; rw [e0, hn]; omega
  | ⟨1, _⟩ => show win1_0.index t (1 : Fin 2) * 512 + 1 * j.val = j.val; rw [e1]; omega

/-- Row c' of the key block of point t is key row 1024·(t % 32) + c'. -/
theorem kB_real (c : Dev nD) (KR : Fin 32768 → Fin 512 → ℝ)
    (hK : ∀ (k : Fin 32768) (j : Fin 512), (V c main_v5_0 : S32768x512.Idx → EReal) (ix2 k j) = ((KR k j : ℝ) : EReal))
    (t : Fin cfg1.N) (c' : Fin 1024) (j : Fin 512) (k : Fin 32768) (hk : k.val = 1024 * (t.val % 32) + c'.val) :
    kB V c t (ix2 c' j) = ((KR k j : ℝ) : EReal) := by
  refine Eq.trans ?_ (hK k j)
  unfold kB iblk1
  rw [View.read_apply]
  show V c main_v5_0 _ = V c main_v5_0 _
  congr 1
  funext a
  apply Fin.ext
  obtain ⟨-, -, e2, e3, -⟩ := idx_facts1 t
  match a with
  | ⟨0, _⟩ => show win1_1.index t (0 : Fin 2) * 1024 + 1 * c'.val = k.val; rw [e2, hk]; omega
  | ⟨1, _⟩ => show win1_1.index t (1 : Fin 2) * 512 + 1 * j.val = j.val; rw [e3]; omega

/-- Row c' of the value block of point t is value row 1024·(t % 32) + c'. -/
theorem vB_real (c : Dev nD) (VR : Fin 32768 → Fin 1024 → ℝ)
    (hV : ∀ (k : Fin 32768) (e : Fin 1024), (V c main_v5_1 : S32768x1024.Idx → EReal) (ix2 k e) = ((VR k e : ℝ) : EReal))
    (t : Fin cfg1.N) (c' : Fin 1024) (e : Fin 1024) (k : Fin 32768) (hk : k.val = 1024 * (t.val % 32) + c'.val) :
    vB V c t (ix2 c' e) = ((VR k e : ℝ) : EReal) := by
  refine Eq.trans ?_ (hV k e)
  unfold vB iblk1
  rw [View.read_apply]
  show V c main_v5_1 _ = V c main_v5_1 _
  congr 1
  funext a
  apply Fin.ext
  obtain ⟨-, -, -, -, e4, e5, -⟩ := idx_facts1 t
  match a with
  | ⟨0, _⟩ => show win1_2.index t (0 : Fin 2) * 1024 + 1 * c'.val = k.val; rw [e4, hk]; omega
  | ⟨1, _⟩ => show win1_2.index t (1 : Fin 2) * 1024 + 1 * e.val = e.val; rw [e5]; omega

/-! ## One point's contribution, as reals -/

section Reals

variable (c : Dev nD) (qR : Fin 8192 → Fin 512 → ℝ) (KR : Fin 32768 → Fin 512 → ℝ) (VR : Fin 32768 → Fin 1024 → ℝ)
  (hq : ∀ (n : Fin 8192) (j : Fin 512), (V c main_v0 : S8192x512.Idx → EReal) (ix2 n j) = ((qR n j : ℝ) : EReal))
  (hK : ∀ (k : Fin 32768) (j : Fin 512), (V c main_v5_0 : S32768x512.Idx → EReal) (ix2 k j) = ((KR k j : ℝ) : EReal))
  (hV : ∀ (k : Fin 32768) (e : Fin 1024), (V c main_v5_1 : S32768x1024.Idx → EReal) (ix2 k e) = ((VR k e : ℝ) : EReal))

include hq hK in
/-- An entry of the point's exp-score block is the real weight of its key for its query row. -/
theorem score_coe (t : Fin cfg1.N) (r c' : Fin 1024) (n : Fin 8192) (hn : n.val = 1024 * (t.val / 32) + r.val)
    (k : Fin 32768) (hk : k.val = 1024 * (t.val % 32) + c'.val) :
    k1_pay3 (F := Ideal) (qB V c t) (kB V c t) (ix2 r c')
      = ((Real.exp (∑ j : Fin 512, qR n j * KR k j) : ℝ) : EReal) := by
  rw [pay3_apply]
  have hterm : ∀ j : Fin 512, qB V c t (ix2 r j) * kB V c t (ix2 c' j) = ((qR n j * KR k j : ℝ) : EReal) := fun j => by
    rw [qB_real V c qR hq t r j n hn, kB_real V c KR hK t c' j k hk, ← EReal.coe_mul]
  rw [Finset.sum_congr rfl (fun j _ => hterm j), ← Cert.RealLemmas.coe_sum]
  exact Cert.RealLemmas.exp_coe _

include hq hK in
/-- The row sum of the point's exp-score block is the real sum of the weights over the point's tile of keys. -/
theorem tile_l (t : Fin cfg1.N) (m : ℕ) (hm : t.val % 32 = m) (r : Fin 1024) (n : Fin 8192)
    (hn : n.val = 1024 * (t.val / 32) + r.val) :
    ∑ c' : Fin 1024, k1_pay3 (F := Ideal) (qB V c t) (kB V c t) (ix2 r c')
      = ((∑ c' : Fin 1024, wt qR KR n (m * 1024 + c'.val) : ℝ) : EReal) := by
  rw [Cert.RealLemmas.coe_sum]
  refine Finset.sum_congr rfl fun c' _ => ?_
  have hlt : m * 1024 + c'.val < 32768 := by omega
  unfold wt
  rw [dif_pos hlt]
  exact score_coe V c qR KR hq hK t r c' n hn ⟨m * 1024 + c'.val, hlt⟩
    (by show m * 1024 + c'.val = 1024 * (t.val % 32) + c'.val; omega)

include hq hK hV in
/-- The point's exp-score block times its value block, entry (r, e), is the real weighted sum over the point's tile. -/
theorem tile_a (t : Fin cfg1.N) (m : ℕ) (hm : t.val % 32 = m) (r e : Fin 1024) (n : Fin 8192)
    (hn : n.val = 1024 * (t.val / 32) + r.val) :
    ∑ c' : Fin 1024, k1_pay3 (F := Ideal) (qB V c t) (kB V c t) (ix2 r c') * vB V c t (ix2 c' e)
      = ((∑ c' : Fin 1024, wv qR KR VR n e (m * 1024 + c'.val) : ℝ) : EReal) := by
  rw [Cert.RealLemmas.coe_sum]
  refine Finset.sum_congr rfl fun c' _ => ?_
  have hlt : m * 1024 + c'.val < 32768 := by omega
  have hk : (⟨m * 1024 + c'.val, hlt⟩ : Fin 32768).val = 1024 * (t.val % 32) + c'.val := by
    show m * 1024 + c'.val = 1024 * (t.val % 32) + c'.val; omega
  unfold wv
  rw [dif_pos hlt, score_coe V c qR KR hq hK t r c' n hn ⟨m * 1024 + c'.val, hlt⟩ hk,
    vB_real V c VR hV t c' e ⟨m * 1024 + c'.val, hlt⟩ hk, ← EReal.coe_mul]

/-! ## The invariant along a row of the grid -/

include hq hK hV in
/-- After point 32·i + m the scratch pair holds, for row r of query tile i, the sums over the first m + 1 tiles
    of keys of the weights and of the weighted value entries: from zeros at m = 0, one tile more at every point. -/
theorem inv1 (i : Fin 8) (r e : Fin 1024) :
    ∀ (m : ℕ) (hm : m < 32) (n : ℕ) (hn : n < cfg1.N), n = 32 * i.val + m →
      (sc1 V c n hn).1 (ix2 r (0 : Fin 1))
          = ((psum (wt qR KR ⟨1024 * i.val + r.val, by omega⟩) (m + 1) : ℝ) : EReal)
        ∧ (sc1 V c n hn).2 (ix2 r e)
          = ((psum (wv qR KR VR ⟨1024 * i.val + r.val, by omega⟩ e) (m + 1) : ℝ) : EReal)
  | 0, hm, n, hn, h => by
    have h0 : (⟨n, hn⟩ : Fin cfg1.N).val % 32 = 0 := by show n % 32 = 0; omega
    have hrow : (⟨1024 * i.val + r.val, by omega⟩ : Fin 8192).val = 1024 * ((⟨n, hn⟩ : Fin cfg1.N).val / 32) + r.val := by
      show 1024 * i.val + r.val = 1024 * (n / 32) + r.val; omega
    have hs : sc1 V c n hn = step1 (qB V c ⟨n, hn⟩) (kB V c ⟨n, hn⟩) (vB V c ⟨n, hn⟩) (k1_pay1 (F := Ideal), k1_pay2 (F := Ideal)) :=
      sc1_first V c ⟨n, hn⟩ h0
    rw [hs]
    constructor
    · show k1_pay4 (F := Ideal) (qB V c ⟨n, hn⟩) (kB V c ⟨n, hn⟩) (k1_pay1 (F := Ideal)) (ix2 r (0 : Fin 1)) = _
      rw [pay4_apply, pay1_apply, zero_add, tile_l V c qR KR hq hK ⟨n, hn⟩ 0 h0 r _ hrow, psum_succ, psum_zero, zero_add]
    · show k1_pay5 (F := Ideal) (qB V c ⟨n, hn⟩) (kB V c ⟨n, hn⟩) (vB V c ⟨n, hn⟩) (k1_pay2 (F := Ideal)) (ix2 r e) = _
      rw [pay5_apply, pay2_apply, zero_add, tile_a V c qR KR VR hq hK hV ⟨n, hn⟩ 0 h0 r e _ hrow, psum_succ, psum_zero,
        zero_add]
  | m + 1, hm, n, hn, h => by
    have h0 : ¬ (⟨n, hn⟩ : Fin cfg1.N).val % 32 = 0 := by show ¬ n % 32 = 0; omega
    have hm' : (⟨n, hn⟩ : Fin cfg1.N).val % 32 = m + 1 := by show n % 32 = m + 1; omega
    have hrow : (⟨1024 * i.val + r.val, by omega⟩ : Fin 8192).val = 1024 * ((⟨n, hn⟩ : Fin cfg1.N).val / 32) + r.val := by
      show 1024 * i.val + r.val = 1024 * (n / 32) + r.val; omega
    have hn' : n - 1 < cfg1.N := Nat.lt_of_le_of_lt (Nat.sub_le _ _) hn
    have hs : sc1 V c n hn = step1 (qB V c ⟨n, hn⟩) (kB V c ⟨n, hn⟩) (vB V c ⟨n, hn⟩) (sc1 V c (n - 1) hn') :=
      sc1_next V c ⟨n, hn⟩ h0
    obtain ⟨ihl, iha⟩ := inv1 i r e m (by omega) (n - 1) hn' (by omega)
    rw [hs]
    constructor
    · show k1_pay4 (F := Ideal) (qB V c ⟨n, hn⟩) (kB V c ⟨n, hn⟩) (sc1 V c (n - 1) hn').1 (ix2 r (0 : Fin 1)) = _
      rw [pay4_apply, ihl, tile_l V c qR KR hq hK ⟨n, hn⟩ (m + 1) hm' r _ hrow, psum_succ _ (m + 1), EReal.coe_add]
    · show k1_pay5 (F := Ideal) (qB V c ⟨n, hn⟩) (kB V c ⟨n, hn⟩) (vB V c ⟨n, hn⟩) (sc1 V c (n - 1) hn').2 (ix2 r e) = _
      rw [pay5_apply, iha, tile_a V c qR KR VR hq hK hV ⟨n, hn⟩ (m + 1) hm' r e _ hrow, psum_succ _ (m + 1),
        EReal.coe_add]

/-! ## The stored block, the cover, the array -/

/-- The softmax-weighted average of the value entries `e` for query row `n`. -/
def quot (n : Fin 8192) (e : Fin 1024) : ℝ :=
  (∑ k : Fin 32768, Real.exp (∑ j : Fin 512, qR n j * KR k j) * VR k e)
    / (∑ k : Fin 32768, Real.exp (∑ j : Fin 512, qR n j * KR k j))

/-- What the output array ends holding: the average at every (row, column). -/
abbrev G1 : S8192x1024.Idx → EReal := fun i => ((quot qR KR VR (i 0) (i 1) : ℝ) : EReal)

include hq hK hV in
/-- At the last point of a row of the grid the stored block is the quotient of the sums over all 32768 keys,
    the normaliser being a positive real. -/
theorem out_block (t : Fin cfg1.N) (h31 : t.val % 32 = 31) (r e : Fin 1024) (n : Fin 8192)
    (hn : n.val = 1024 * (t.val / 32) + r.val) (e' : Fin 1024) (he : e'.val = e.val) :
    out1_3 V c t (ix2 r e) = ((quot qR KR VR n e' : ℝ) : EReal) := by
  have hN : cfg1.N = 256 := N_1
  have ht : t.val < 256 := lt_of_lt_of_eq t.isLt hN
  obtain rfl : e' = e := Fin.ext he
  have hb : 1024 * (t.val / 32) + r.val < 8192 := by omega
  rw [show n = ⟨1024 * (t.val / 32) + r.val, hb⟩ from Fin.ext hn]
  obtain ⟨hl, ha⟩ := inv1 V c qR KR VR hq hK hV ⟨t.val / 32, by omega⟩ r e' 31 (by omega) t.val t.isLt
    (by show t.val = 32 * (t.val / 32) + 31; omega)
  unfold out1_3
  rw [pay6_apply, hl, ha, psum_wt_all, psum_wv_all]
  haveI : Nonempty (Fin 32768) := ⟨⟨0, by omega⟩⟩
  exact Cert.RealLemmas.div_coe _ _ (Cert.RealLemmas.sum_exp_pos _).ne'

include hq hK hV in
/-- What a flushing point writes back is its block of the averages. -/
theorem flushed1_eq (t : Fin cfg1.N) (hf : (cfg1.win 3).flush t = true) :
    (dat1 (F := Ideal) V c).flushed 3 t = ((cfg1.win 3).blk t).view.read (Elt Ideal) (G1 qR KR VR) := by
  have h31 : t.val % 32 = 31 := (flush1_3 t).mp hf
  show (cfg1.win 3).cut (grid1.coords t) ((dat1 (F := Ideal) V c).after 3 t) = _
  rw [after1_3]
  funext j
  rw [View.read_apply]
  obtain ⟨r, e, rfl⟩ : ∃ (r : Fin 1024) (e : Fin 1024), j = ix2 r e := ⟨j 0, j 1, eq_ix2 j⟩
  obtain ⟨-, -, -, -, -, -, e6, e7⟩ := idx_facts1 t
  exact out_block V c qR KR VR hq hK hV t h31 r e _
    (by show win1_3.index t (0 : Fin 2) * 1024 + 1 * r.val = 1024 * (t.val / 32) + r.val; rw [e6]; omega) _
    (by show win1_3.index t (1 : Fin 2) * 1024 + 1 * e.val = e.val; rw [e7]; omega)

end Reals

/-- An index of the output array is in point `t`'s block iff each coordinate is in the block's range on its axis. -/
theorem mem_blk1_3 (t : Fin cfg1.N) (i : S8192x1024.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v6).slice (win1_3.rect t)).set ↔ _
  rw [View.set_slice_whole, Rect.mem_set_unit]
  exact Iff.rfl

/-- Row n of the output lies in the block of point 32·(n / 1024) + 31, the last of its row of the grid, which flushes. -/
theorem cover1_3 (i : S8192x1024.Idx) :
    ∃ t : Fin cfg1.N, (cfg1.win 3).flush t = true ∧ i ∈ ((cfg1.win 3).blk t).view.set := by
  have hi0 : (i 0).val < 8192 := idx2_lt0 i
  have hi1 : (i 1).val < 1024 := idx2_lt1 i
  have hN : cfg1.N = 256 := N_1
  have hlt : 32 * ((i 0).val / 1024) + 31 < cfg1.N := by rw [hN]; omega
  obtain ⟨t, htv⟩ : ∃ t : Fin cfg1.N, t.val = 32 * ((i 0).val / 1024) + 31 := ⟨⟨_, hlt⟩, rfl⟩
  refine ⟨t, (flush1_3 t).mpr (by omega), ?_⟩
  rw [mem_blk1_3]
  obtain ⟨-, -, -, -, -, -, e6, e7⟩ := idx_facts1 t
  intro a
  match a with
  | ⟨0, _⟩ =>
    show win1_3.index t (0 : Fin 2) * 1024 ≤ (i 0).val ∧ (i 0).val < win1_3.index t (0 : Fin 2) * 1024 + 1024
    rw [e6]; omega
  | ⟨1, _⟩ =>
    show win1_3.index t (1 : Fin 2) * 1024 ≤ (i 1).val ∧ (i 1).val < win1_3.index t (1 : Fin 2) * 1024 + 1024
    rw [e7]; omega

end Value1

open Value1

variable (V : (c : Dev nD) → (b : Ref sig .tc) → Buf (Elt Ideal) ((c : Thread nD τ).loc b))

/-- THE OUTPUT ARRAY of region 1, entry by entry: every flushing point writes back its block of the averages and
    the flushing points' blocks cover the array. -/
theorem out_value (c : Dev nD) (qR : Fin 8192 → Fin 512 → ℝ) (KR : Fin 32768 → Fin 512 → ℝ) (VR : Fin 32768 → Fin 1024 → ℝ)
    (hq : ∀ (n : Fin 8192) (j : Fin 512), (V c main_v0 : S8192x512.Idx → EReal) (ix2 n j) = ((qR n j : ℝ) : EReal))
    (hK : ∀ (k : Fin 32768) (j : Fin 512), (V c main_v5_0 : S32768x512.Idx → EReal) (ix2 k j) = ((KR k j : ℝ) : EReal))
    (hV : ∀ (k : Fin 32768) (e : Fin 1024), (V c main_v5_1 : S32768x1024.Idx → EReal) (ix2 k e) = ((VR k e : ℝ) : EReal))
    (n : Fin 8192) (e : Fin 1024) :
    ((dat1 (F := Ideal) V c).arrAt 3 cfg1.N : S8192x1024.Idx → EReal) (ix2 n e)
      = ((((∑ k : Fin 32768, Real.exp (∑ j : Fin 512, qR n j * KR k j) * VR k e)
            / (∑ k : Fin 32768, Real.exp (∑ j : Fin 512, qR n j * KR k j))) : ℝ) : EReal) := by
  have hfin := (dat1 (F := Ideal) V c).arrAt_eq_of_cover 3 (G1 qR KR VR)
    (fun t hf => flushed1_eq V c qR KR VR hq hK hV t hf) cover1_3
  exact congrFun hfin (ix2 n e)

end Cert.KernelIdeal.Fr

end
-- ==== Proof.Spec.lean ====
/-
  The mathematics both programs compute, over the reals.

  With every input entry a real number, each program's result entry is the coercion of ONE real expression:
  keys   k j   = (∑ h, bank k h · Wk h j) + bk j                     (the bank projected to key space)
  values k e   = (∑ h, bank k h · Wv h e) + bv e                     (the bank projected to value space)
  score  b s k = ∑ j, q b s j · keys k j                             (a query against every key)
  out    b s e = (∑ k, exp (score b s k) · values k e) / (∑ k, exp (score b s k))
  — a softmax-weighted average of the value rows. The kernel accumulates numerator and denominator tile by tile
  with no shift; the reference subtracts the row maximum M before exponentiating and divides each weight first.
  Since exp (x - M) = exp x · exp (-M) with exp (-M) a positive real, the shift cancels between numerator and
  denominator, and both are `out`.
-/
import Idealize.ShloMosaic.PureOps.Ideal
import Idealize.ShloMosaic.Lib.ValueIdx

noncomputable section

namespace Cert.Spec

/-- The six argument arrays, as arrays of reals. -/
structure Inputs where
  q  : Fin 4 → Fin 2048 → Fin 512 → ℝ
  kb : Fin 32768 → Fin 1024 → ℝ
  Wk : Fin 1024 → Fin 512 → ℝ
  bk : Fin 512 → ℝ
  Wv : Fin 1024 → Fin 1024 → ℝ
  bv : Fin 1024 → ℝ

/-- Row `k` of the bank projected to key space. -/
def keysR (I : Inputs) (k : Fin 32768) (j : Fin 512) : ℝ := (∑ h : Fin 1024, I.kb k h * I.Wk h j) + I.bk j

/-- Row `k` of the bank projected to value space. -/
def valsR (I : Inputs) (k : Fin 32768) (e : Fin 1024) : ℝ := (∑ h : Fin 1024, I.kb k h * I.Wv h e) + I.bv e

/-- The score of query `(b, s)` against key `k`: their inner product, unscaled. -/
def scoreR (I : Inputs) (b : Fin 4) (s : Fin 2048) (k : Fin 32768) : ℝ := ∑ j : Fin 512, I.q b s j * keysR I k j

/-- The retrieved row: the value rows averaged with weights `exp score`, normalised by their sum. -/
def outR (I : Inputs) (b : Fin 4) (s : Fin 2048) (e : Fin 1024) : ℝ :=
  (∑ k : Fin 32768, Real.exp (scoreR I b s k) * valsR I k e) / (∑ k : Fin 32768, Real.exp (scoreR I b s k))

open Idealize.ShloMosaic in
/-- The six argument arrays `a0 … a5` (extended reals, indexed by their shapes) ARE the real arrays `I`, entry by
    entry: what finiteness of every input gives. Stated through explicit coordinates. -/
structure Holds (I : Inputs)
    (a0 : (⟨3, ![4, 2048, 512]⟩ : Shape).Idx → EReal) (a1 : (⟨2, ![32768, 1024]⟩ : Shape).Idx → EReal)
    (a2 : (⟨2, ![1024, 512]⟩ : Shape).Idx → EReal) (a3 : (⟨1, ![512]⟩ : Shape).Idx → EReal)
    (a4 : (⟨2, ![1024, 1024]⟩ : Shape).Idx → EReal) (a5 : (⟨1, ![1024]⟩ : Shape).Idx → EReal) : Prop where
  q  : ∀ (b : Fin 4) (s : Fin 2048) (j : Fin 512), a0 (ValueIdx.ix3 b s j) = ((I.q b s j : ℝ) : EReal)
  kb : ∀ (k : Fin 32768) (h : Fin 1024), a1 (ValueIdx.ix2 k h) = ((I.kb k h : ℝ) : EReal)
  Wk : ∀ (h : Fin 1024) (j : Fin 512), a2 (ValueIdx.ix2 h j) = ((I.Wk h j : ℝ) : EReal)
  bk : ∀ (j : Fin 512), a3 (ValueIdx.ix1 j) = ((I.bk j : ℝ) : EReal)
  Wv : ∀ (h : Fin 1024) (e : Fin 1024), a4 (ValueIdx.ix2 h e) = ((I.Wv h e : ℝ) : EReal)
  bv : ∀ (e : Fin 1024), a5 (ValueIdx.ix1 e) = ((I.bv e : ℝ) : EReal)

end Cert.Spec

end
-- ==== Proof.KiValue.lean ====
/-
  The kernel program's result, index by index, at the ideal instance, when the six inputs hold the real arrays `I`:
  entry (b, s, e) of the result is the coercion of `outR I b s e`.
  The result is region 1's output array unflattened; region 1 reads the flattened queries and the key and value arrays
  region 0 left, which are the coercions of `keysR I` and `valsR I` (a sum of products of reals plus a real is a real);
  region 1's row n = 2048·b + s is then the softmax-weighted average of the value rows with the scores of query (b, s).
-/
import proofs.«426837_j37864431681794_3_alg».proof.Proof.KiHooks
import proofs.«426837_j37864431681794_3_alg».proof.Proof.KiValue0
import proofs.«426837_j37864431681794_3_alg».proof.Proof.KiValue1
import proofs.«426837_j37864431681794_3_alg».proof.Proof.Spec
import proofs.«426837_j37864431681794_3_alg».proof.Proof.LibSoftmaxReal

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open ValueIdx

variable (m : (ℓ : Loc nD τ sig) → Buf (Elt Ideal) ℓ) (ρ : Dev nD → PrngReg) (I : Cert.Spec.Inputs)

/-- The queries flattened: row n is query (n / 2048, n % 2048). -/
def qFlat (n : Fin 8192) (j : Fin 512) : ℝ :=
  I.q ⟨n.val / 2048, by omega⟩ ⟨n.val % 2048, Nat.mod_lt _ (by norm_num)⟩ j

theorem qFlat_apply (b : Fin 4) (s : Fin 2048) (j : Fin 512) :
    qFlat I (⟨b.val * 2048 + s.val, by omega⟩ : Fin 8192) j = I.q b s j := by
  unfold qFlat
  congr 1
  · exact Fin.ext (by show (b.val * 2048 + s.val) / 2048 = b.val; omega)
  · exact Fin.ext (by show (b.val * 2048 + s.val) % 2048 = s.val; omega)

/-- Region 1's key array holds the spec's keys. -/
theorem keys_real (c : Dev nD) (H : Cert.Spec.Holds I (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))) (k : Fin 32768) (j : Fin 512) :
    (V2 m ρ c main_v5_0 : S32768x512.Idx → EReal) (ix2 k j) = ((Cert.Spec.keysR I k j : ℝ) : EReal) := by
  rw [V2_keys]
  refine (keys_apply (V1 m ρ) c k j).trans ?_
  unfold Cert.Spec.keysR bankA wkA bkA
  rw [EReal.coe_add, Cert.RealLemmas.coe_sum, bk_apply, H.bk]
  congr 1
  refine Finset.sum_congr rfl fun h _ => ?_
  rw [EReal.coe_mul, bank_apply, wk_apply, H.kb, H.Wk]

/-- Region 1's value array holds the spec's values. -/
theorem vals_real (c : Dev nD) (H : Cert.Spec.Holds I (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))) (k : Fin 32768) (e : Fin 1024) :
    (V2 m ρ c main_v5_1 : S32768x1024.Idx → EReal) (ix2 k e) = ((Cert.Spec.valsR I k e : ℝ) : EReal) := by
  rw [V2_vals]
  refine (vals_apply (V1 m ρ) c k e).trans ?_
  unfold Cert.Spec.valsR bankA wvA bvA
  rw [EReal.coe_add, Cert.RealLemmas.coe_sum, bv_apply, H.bv]
  congr 1
  refine Finset.sum_congr rfl fun h _ => ?_
  rw [EReal.coe_mul, bank_apply, wv_apply, H.kb, H.Wv]

/-- Region 1's query array holds the flattened queries. -/
theorem q_real (c : Dev nD) (H : Cert.Spec.Holds I (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))) (n : Fin 8192) (j : Fin 512) :
    (V2 m ρ c main_v0 : S8192x512.Idx → EReal) (ix2 n j) = ((qFlat I n j : ℝ) : EReal) := by
  rw [V2_q]
  have hn : n = (⟨(⟨n.val / 2048, by omega⟩ : Fin 4).val * 2048 + (⟨n.val % 2048, Nat.mod_lt _ (by norm_num)⟩ : Fin 2048).val, by omega⟩ : Fin 8192) :=
    Fin.ext (by show n.val = n.val / 2048 * 2048 + n.val % 2048; omega)
  rw [hn, q_apply, H.q, qFlat_apply]

/-- THE KERNEL'S VALUE: entry (b, s, e) of the result is `outR I b s e`. -/
theorem ker_value (c : Dev nD) (H : Cert.Spec.Holds I (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))) (b : Fin 4) (s : Fin 2048) (e : Fin 1024) :
    (W4 m ρ c (Proc.devRef .tc main_v7) : S4x2048x1024.Idx → EReal) (ix3 b s e) = ((Cert.Spec.outR I b s e : ℝ) : EReal) := by
  rw [out_apply, V3_out]
  refine (out_value (V2 m ρ) c (qFlat I) (Cert.Spec.keysR I) (Cert.Spec.valsR I)
    (q_real m ρ I c H) (keys_real m ρ I c H) (vals_real m ρ I c H) _ e).trans ?_
  unfold Cert.Spec.outR Cert.Spec.scoreR
  simp only [qFlat_apply]

end Cert.KernelIdeal.Fr

end
-- ==== Proof.RefValue.lean ====
/-
  The reference program's result entry, read as a real number.

  With every input entry a real, each of the reference's stages is, entry by entry, the coercion of a real
  expression: keys and values are the bank's rows projected (a sum of products plus a bias), a score is a query's
  inner product with a key row, the row maximum taken from -∞ over finitely many reals is some real M, the shifted
  exponentials exp (score - M) have a positive sum, each weight is their quotient by that sum, and the result is
  the weights' contraction with the value rows. Shift invariance of the softmax-weighted average then removes M.
-/
import proofs.«426837_j37864431681794_3_alg».proof.Proof.Gen.ReferenceIdeal.Read
import proofs.«426837_j37864431681794_3_alg».proof.Proof.Spec
import proofs.«426837_j37864431681794_3_alg».proof.Proof.LibSoftmaxReal
import Idealize.ShloMosaic.Lib.ValueIdx
import Idealize.ShloMosaic.Lib.Pipeline.Value
import Idealize.ShloMosaic.PureOps.Ideal.Laws

noncomputable section

namespace Cert.RefValue

open Idealize.ShloMosaic Idealize.ShloMosaic.ValueIdx Cert.ReferenceIdeal Cert.ReferenceIdeal.Gen Cert.ReferenceIdeal.Read Cert.Spec

section Stages

variable (I : Cert.Spec.Inputs)
  (x0 : FVec Ideal Cert.ReferenceIdeal.S4x2048x512 .f32) (x1 : FVec Ideal Cert.ReferenceIdeal.S32768x1024 .f32)
  (x2 : FVec Ideal Cert.ReferenceIdeal.S1024x512 .f32) (x3 : FVec Ideal Cert.ReferenceIdeal.S512 .f32)
  (x4 : FVec Ideal Cert.ReferenceIdeal.S1024x1024 .f32) (x5 : FVec Ideal Cert.ReferenceIdeal.S1024 .f32)

/-! ## Keys: the bank projected to key space -/

/-- A key entry is the real sum of products plus the bias. -/
theorem keys_val (H : Cert.Spec.Holds I x0 x1 x2 x3 x4 x5) (k : Fin 32768) (j : Fin 512) :
    val_main_v3 (F := Ideal) x1 x2 x3 (ix2 k j) = ((keysR I k j : ℝ) : EReal) := by
  rw [val_main_v3_apply, val_main_v0_apply, val_main_v2_apply, val_main_v1_apply]
  have e1 : ∀ h : Fin 1024, lidx_main_v0 (ix2 k j) h = ix2 k h := fun h => funext fun a => Fin.ext (by
    match a with | ⟨0, _⟩ => rfl | ⟨1, _⟩ => rfl)
  have e2 : ∀ h : Fin 1024, ridx_main_v0 (ix2 k j) h = ix2 h j := fun h => funext fun a => Fin.ext (by
    match a with | ⟨0, _⟩ => rfl | ⟨1, _⟩ => rfl)
  have e3 : idx_main_v1 (idx_main_v2 (ix2 k j)) = ix1 j := funext fun a => Fin.ext (by
    match a with | ⟨0, _⟩ => rfl)
  rw [e3, H.bk, Ideal.addf_def]
  simp only [e1, e2, H.kb, H.Wk]
  unfold keysR
  rw [EReal.coe_add, Cert.RealLemmas.coe_sum]
  simp only [EReal.coe_mul]

/-! ## Values: the bank projected to value space -/

/-- A value entry is the real sum of products plus the bias. -/
theorem vals_val (H : Cert.Spec.Holds I x0 x1 x2 x3 x4 x5) (k : Fin 32768) (e : Fin 1024) :
    val_main_v19 (F := Ideal) x1 x4 x5 (ix2 k e) = ((valsR I k e : ℝ) : EReal) := by
  rw [val_main_v19_apply, val_main_v16_apply, val_main_v18_apply, val_main_v17_apply]
  have e1 : ∀ h : Fin 1024, lidx_main_v16 (ix2 k e) h = ix2 k h := fun h => funext fun a => Fin.ext (by
    match a with | ⟨0, _⟩ => rfl | ⟨1, _⟩ => rfl)
  have e2 : ∀ h : Fin 1024, ridx_main_v16 (ix2 k e) h = ix2 h e := fun h => funext fun a => Fin.ext (by
    match a with | ⟨0, _⟩ => rfl | ⟨1, _⟩ => rfl)
  have e3 : idx_main_v17 (idx_main_v18 (ix2 k e)) = ix1 e := funext fun a => Fin.ext (by
    match a with | ⟨0, _⟩ => rfl)
  rw [e3, H.bv, Ideal.addf_def]
  simp only [e1, e2, H.kb, H.Wv]
  unfold valsR
  rw [EReal.coe_add, Cert.RealLemmas.coe_sum]
  simp only [EReal.coe_mul]

/-! ## Scores: a query against every key -/

/-- A score is the real inner product of the query row with the key row. -/
theorem score_val (H : Cert.Spec.Holds I x0 x1 x2 x3 x4 x5) (b : Fin 4) (s : Fin 2048) (k : Fin 32768) :
    val_main_v4 (F := Ideal) x0 x1 x2 x3 (ix3 b s k) = ((scoreR I b s k : ℝ) : EReal) := by
  rw [val_main_v4_apply]
  have e1 : ∀ j : Fin 512, lidx_main_v4 (ix3 b s k) j = ix3 b s j := fun j => funext fun a => Fin.ext (by
    match a with | ⟨0, _⟩ => rfl | ⟨1, _⟩ => rfl | ⟨2, _⟩ => rfl)
  have e2 : ∀ j : Fin 512, ridx_main_v4 (ix3 b s k) j = ix2 k j := fun j => funext fun a => Fin.ext (by
    match a with | ⟨0, _⟩ => rfl | ⟨1, _⟩ => rfl)
  simp only [e1, e2, H.q, keys_val I x0 x1 x2 x3 x4 x5 H]
  unfold scoreR
  rw [Cert.RealLemmas.coe_sum]
  simp only [EReal.coe_mul]

/-! ## The row maximum: from -∞ over finitely many reals, a real -/

/-- The reduced index (b, s) with key coordinate k put back on the last axis is (b, s, k). -/
theorem lift_ix3 (hR : S4x2048x32768.Reduces [2] S4x2048) (b : Fin 4) (s : Fin 2048)
    (k : Fin (S4x2048x32768.size 2)) : hR.lift (ix2 b s) k = ix3 b s (⟨k.val, k.isLt⟩ : Fin 32768) := by
  funext c; apply Fin.ext
  fin_cases c <;> rfl

/-- The word 0xFF800000 is -∞. -/
theorem ofBits_neg_inf : Ideal.ofBits .f32 0xFF800000#32 = (⊥ : EReal) := by
  simp [Ideal.ofBits, Ideal.ieee]

/-- The running maximum of a row of scores from -∞ is some real number. -/
theorem rowmax_val (H : Cert.Spec.Holds I x0 x1 x2 x3 x4 x5) (b : Fin 4) (s : Fin 2048) :
    ∃ M : ℝ, val_main_v5 (F := Ideal) x0 x1 x2 x3 (ix2 b s) = (M : EReal) := by
  have hR : S4x2048x32768.Reduces [2] S4x2048 := by decide
  obtain ⟨M, hM⟩ := Cert.RealLemmas.fold_max_coe (n := 32767) (fun k => scoreR I b s k)
  refine ⟨M, ?_⟩
  unfold val_main_v5
  rw [Host.reduce_eq_fold_single FloatOps.maximumf _ _ reducesTo_S4x2048x32768_S4x2048_d2 hR h_S_]
  have h0 : (val_main_cst (F := Ideal)) (Shape.Idx.first h_S_) = (⊥ : EReal) := by
    rw [val_main_cst_apply, Ideal.ofBits_def, ofBits_neg_inf]
  have hf : (val_main_v4 (F := Ideal) x0 x1 x2 x3 ∘ hR.lift (ix2 b s))
      = fun k : Fin 32768 => ((scoreR I b s k : ℝ) : EReal) := funext fun k => by
    show val_main_v4 (F := Ideal) x0 x1 x2 x3 (hR.lift (ix2 b s) k) = _
    rw [lift_ix3 hR b s k]
    exact score_val I x0 x1 x2 x3 x4 x5 H b s _
  rw [h0, hf]
  exact hM

/-- Against -∞ the maximum is the other operand: the shift the reference subtracts is that real. -/
theorem shift_val (b : Fin 4) (s : Fin 2048) (M : ℝ)
    (hM : val_main_v5 (F := Ideal) x0 x1 x2 x3 (ix2 b s) = (M : EReal)) (k : Fin 32768) :
    val_main_v9 (F := Ideal) x0 x1 x2 x3 (ix3 b s k) = (M : EReal) := by
  rw [val_main_v9_apply, val_main_v8_apply]
  have e1 : idx_main_v8 (idx_main_v9 (ix3 b s k)) = ix2 b s := funext fun a => Fin.ext (by
    match a with | ⟨0, _⟩ => rfl | ⟨1, _⟩ => rfl)
  rw [e1, val_main_v7_apply, val_main_v6_apply, val_main_cst_0_apply, hM, Ideal.ofBits_def, ofBits_neg_inf,
    Ideal.maximumf_def]
  exact max_eq_right bot_le

/-! ## The shifted exponentials, their sum, and the weights -/

/-- A shifted exponential is the real exponential of score minus shift. -/
theorem exp_val (H : Cert.Spec.Holds I x0 x1 x2 x3 x4 x5) (b : Fin 4) (s : Fin 2048) (M : ℝ)
    (hM : val_main_v5 (F := Ideal) x0 x1 x2 x3 (ix2 b s) = (M : EReal)) (k : Fin 32768) :
    val_main_v11 (F := Ideal) x0 x1 x2 x3 (ix3 b s k) = ((Real.exp (scoreR I b s k - M) : ℝ) : EReal) := by
  rw [val_main_v11_apply, val_main_v10_apply, shift_val x0 x1 x2 x3 b s M hM k,
    score_val I x0 x1 x2 x3 x4 x5 H b s k, Ideal.subf_def, Ideal.hostUnary_exp_def, ← EReal.coe_sub,
    Cert.RealLemmas.exp_coe]

/-- The row sum of the shifted exponentials, from the zero word, is their real sum. -/
theorem sum_val (H : Cert.Spec.Holds I x0 x1 x2 x3 x4 x5) (b : Fin 4) (s : Fin 2048) (M : ℝ)
    (hM : val_main_v5 (F := Ideal) x0 x1 x2 x3 (ix2 b s) = (M : EReal)) :
    val_main_v12 (F := Ideal) x0 x1 x2 x3 (ix2 b s)
      = (((∑ k : Fin 32768, Real.exp (scoreR I b s k - M)) : ℝ) : EReal) := by
  rw [val_main_v12_apply, val_main_cst_1_apply, Ideal.ofBits_def, Ideal.ofBits_zero_f32, zero_add]
  have e1 : ∀ k : Fin 32768, idx_main_v12 (ix2 b s) k = ix3 b s k := fun k => funext fun a => Fin.ext (by
    match a with | ⟨0, _⟩ => rfl | ⟨1, _⟩ => rfl | ⟨2, _⟩ => rfl)
  simp only [e1, exp_val I x0 x1 x2 x3 x4 x5 H b s M hM]
  rw [Cert.RealLemmas.coe_sum]

/-- A weight is the shifted exponential over the (positive) row sum, as a real quotient. -/
theorem weight_val (H : Cert.Spec.Holds I x0 x1 x2 x3 x4 x5) (b : Fin 4) (s : Fin 2048) (M : ℝ)
    (hM : val_main_v5 (F := Ideal) x0 x1 x2 x3 (ix2 b s) = (M : EReal)) (k : Fin 32768) :
    val_main_v15 (F := Ideal) x0 x1 x2 x3 (ix3 b s k)
      = (((Real.exp (scoreR I b s k - M) / ∑ j : Fin 32768, Real.exp (scoreR I b s j - M)) : ℝ) : EReal) := by
  rw [val_main_v15_apply, val_main_v14_apply, val_main_v13_apply]
  have e1 : idx_main_v13 (idx_main_v14 (ix3 b s k)) = ix2 b s := funext fun a => Fin.ext (by
    match a with | ⟨0, _⟩ => rfl | ⟨1, _⟩ => rfl)
  haveI : Nonempty (Fin 32768) := ⟨⟨0, by decide⟩⟩
  have hpos : (0 : ℝ) < ∑ j : Fin 32768, Real.exp (scoreR I b s j - M) :=
    Cert.RealLemmas.sum_exp_pos (fun j : Fin 32768 => scoreR I b s j - M)
  rw [e1, exp_val I x0 x1 x2 x3 x4 x5 H b s M hM k, sum_val I x0 x1 x2 x3 x4 x5 H b s M hM,
    Ideal.hostDivf_def, Cert.RealLemmas.div_coe _ _ (ne_of_gt hpos)]

end Stages

/-! ## The result: the weights contracted with the value rows -/

/-- The reference's result entry (b, s, e) is the softmax-weighted average of the value rows, as a real: the
    contraction of the weights exp (score - M) / ∑ exp (score - M) with the values, the shift M cancelling. -/
theorem ref_value (I : Cert.Spec.Inputs)
    (x0 : FVec Ideal Cert.ReferenceIdeal.S4x2048x512 .f32) (x1 : FVec Ideal Cert.ReferenceIdeal.S32768x1024 .f32)
    (x2 : FVec Ideal Cert.ReferenceIdeal.S1024x512 .f32) (x3 : FVec Ideal Cert.ReferenceIdeal.S512 .f32)
    (x4 : FVec Ideal Cert.ReferenceIdeal.S1024x1024 .f32) (x5 : FVec Ideal Cert.ReferenceIdeal.S1024 .f32)
    (H : Cert.Spec.Holds I x0 x1 x2 x3 x4 x5) (b : Fin 4) (s : Fin 2048) (e : Fin 1024) :
    Cert.ReferenceIdeal.Read.val_main_v20 (F := Ideal) x0 x1 x2 x3 x4 x5 (ValueIdx.ix3 b s e) = ((Cert.Spec.outR I b s e : ℝ) : EReal) := by
  obtain ⟨M, hM⟩ := rowmax_val I x0 x1 x2 x3 x4 x5 H b s
  rw [val_main_v20_apply]
  have e1 : ∀ k : Fin 32768, lidx_main_v20 (ix3 b s e) k = ix3 b s k := fun k => funext fun a => Fin.ext (by
    match a with | ⟨0, _⟩ => rfl | ⟨1, _⟩ => rfl | ⟨2, _⟩ => rfl)
  have e2 : ∀ k : Fin 32768, ridx_main_v20 (ix3 b s e) k = ix2 k e := fun k => funext fun a => Fin.ext (by
    match a with | ⟨0, _⟩ => rfl | ⟨1, _⟩ => rfl)
  simp only [e1, e2, weight_val I x0 x1 x2 x3 x4 x5 H b s M hM, vals_val I x0 x1 x2 x3 x4 x5 H, ← EReal.coe_mul]
  rw [← Cert.RealLemmas.coe_sum]
  haveI : Nonempty (Fin 32768) := ⟨⟨0, by decide⟩⟩
  rw [Cert.RealLemmas.softmax_shift (fun k : Fin 32768 => scoreR I b s k) (fun k : Fin 32768 => valsR I k e) M]
  rfl

end Cert.RefValue

end
-- ==== Proof.FiniteInputs.lean ====
/-
  Finiteness of the inputs, read back from the stated precondition.

  The precondition is the conjunction, over the six argument arrays, of "every entry x has |x| < +inf". Over the
  extended reals |x| is max x (-x) and the pattern 0x7F800000 denotes ⊤, so the entry fact max x (-x) < ⊤ rules out
  both x = ⊤ (max ⊤ _ = ⊤) and x = ⊥ (max ⊥ (-⊥) = max ⊥ ⊤ = ⊤): the entry is the coercion of a real number.
  Choosing that real at every index of every array gives real arrays whose coercions the six arguments are.
-/
import proofs.«426837_j37864431681794_3_alg».proof.Proof.Spec
import proofs.«426837_j37864431681794_3_alg».proof.Pre_finite_inputs
import Idealize.ShloMosaic.Lib.ReduceAll
import Idealize.ShloMosaic.Lib.ValueIdx
import Idealize.ShloMosaic.PureOps.Ideal.Laws

noncomputable section

namespace Cert.FiniteInputs

open Idealize.ShloMosaic

/-- The rank-0 shape has exactly one index. -/
instance : Subsingleton Cert.Pre_finite_inputs.S_.Idx := ⟨fun a b => funext fun d => d.elim0⟩

/-- The f32 pattern with all exponent bits set and a zero significand is +∞. -/
theorem ofBits_inf : Ideal.ofBits .f32 0x7F800000#32 = (⊤ : EReal) := by
  simp [Ideal.ofBits, Ideal.ieee]

/-- An extended real whose absolute value max a (-a) is below ⊤ is a real number. -/
theorem real_of_abs_lt_top (a : EReal) (h : max a (-a) < ⊤) : ∃ r : ℝ, a = (r : EReal) := by
  induction a using EReal.rec with
  | bot =>
    rw [EReal.neg_bot, max_eq_right bot_le] at h
    exact absurd h (lt_irrefl _)
  | coe r => exact ⟨r, rfl⟩
  | top =>
    rw [max_eq_left le_top] at h
    exact absurd h (lt_irrefl _)

/-- A comparison "a < b" of extended reals that came out 1 holds. -/
theorem lt_of_cmp_olt (a b : EReal) (h : Ideal.cmp .olt a b = 1#1) : a < b := by
  by_contra hn
  simp only [Ideal.cmp, hn, decide_false] at h
  exact absurd h (by decide)

/-- One block of the precondition, for an array of any shape: if "|x| < +inf at every index", reduced by and
    over all axes from 1, is 1, then every entry of x is a real number. -/
theorem block_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ValueIdx.ix0 = 1#1)
    (i : s.Idx) : ∃ r : ℝ, x i = (r : EReal) := by
  have hi := Host.reduce_andi_all _ _ hr hu ValueIdx.ix0 e i
  have hc : Ideal.cmp .olt (max (x i) (-(x i))) (Ideal.ofBits .f32 0x7F800000#32) = 1#1 := hi
  rw [ofBits_inf] at hc
  exact real_of_abs_lt_top _ (lt_of_cmp_olt _ _ hc)

theorem exists_inputs [Cert.Pre_finite_inputs.Facts]
    (a0 : FVec Ideal Cert.Pre_finite_inputs.S4x2048x512 .f32) (a1 : FVec Ideal Cert.Pre_finite_inputs.S32768x1024 .f32)
    (a2 : FVec Ideal Cert.Pre_finite_inputs.S1024x512 .f32) (a3 : FVec Ideal Cert.Pre_finite_inputs.S512 .f32)
    (a4 : FVec Ideal Cert.Pre_finite_inputs.S1024x1024 .f32) (a5 : FVec Ideal Cert.Pre_finite_inputs.S1024 .f32)
    (h : Cert.Pre_finite_inputs.fn (F := Ideal) a0 a1 a2 a3 a4 a5 = fun _ => 1#1) :
    ∃ I : Cert.Spec.Inputs, Cert.Spec.Holds I a0 a1 a2 a3 a4 a5 := by
  have h0 := congrFun h ValueIdx.ix0
  dsimp only [Cert.Pre_finite_inputs.fn, Cert.Pre_finite_inputs.fn_part1] at h0
  -- the conjunction of the six blocks, split from the outside in
  obtain ⟨h01234, e5⟩ := IntOp.andi_eq_one.1 h0
  obtain ⟨h0123, e4⟩ := IntOp.andi_eq_one.1 h01234
  obtain ⟨h012, e3⟩ := IntOp.andi_eq_one.1 h0123
  obtain ⟨h01, e2⟩ := IntOp.andi_eq_one.1 h012
  obtain ⟨e0, e1⟩ := IntOp.andi_eq_one.1 h01
  -- every entry of every array is a real; choose it
  choose r0 hr0 using block_real a0 _ _ _ e0
  choose r1 hr1 using block_real a1 _ _ _ e1
  choose r2 hr2 using block_real a2 _ _ _ e2
  choose r3 hr3 using block_real a3 _ _ _ e3
  choose r4 hr4 using block_real a4 _ _ _ e4
  choose r5 hr5 using block_real a5 _ _ _ e5
  exact ⟨⟨fun b s j => r0 (ValueIdx.ix3 b s j), fun k h => r1 (ValueIdx.ix2 k h), fun h j => r2 (ValueIdx.ix2 h j),
      fun j => r3 (ValueIdx.ix1 j), fun h e => r4 (ValueIdx.ix2 h e), fun e => r5 (ValueIdx.ix1 e)⟩,
    ⟨fun b s j => hr0 _, fun k h => hr1 _, fun h j => hr2 _, fun j => hr3 _, fun h e => hr4 _, fun e => hr5 _⟩⟩

end Cert.FiniteInputs

end
-- ==== Proof.lean ====
/-
  The certificate of the knowledge-store retrieval kernel against its jnp reference, over the extended reals.

  The kernel program projects the knowledge bank to keys and values (region 0, 32 grid points) and then computes, for
  each of the 8192 queries, the value rows averaged with weights exp (score) normalised by their sum, streaming over
  32 tiles of keys with two running sums and NO shift by the row maximum (region 1, 8 × 32 grid points). The reference
  computes the same keys, values and scores and applies a softmax that subtracts the row maximum before exponentiating.

  Frames: each kernel program's run is assembled from its two regions' body obligations by the several-region launch
  theorem; every unscoped buffer ends at a named content, and no host operation or region writes an argument. The
  reference's frame is its run with the result dropped.
  Preserves: the idealization rewrote nothing, so the conjunct is `True`.
  Algebraic: finiteness of the inputs makes every entry a real number; then entry (b, s, e) of either program's result
  is the coercion of the same real number `outR I b s e`, because exp (x - M) = exp x · exp (-M) and the positive factor
  exp (-M) cancels between the weights and their sum.
-/
import proofs.«426837_j37864431681794_3_alg».proof.Defs
import proofs.«426837_j37864431681794_3_alg».proof.Proof.Gen.Kernel
import proofs.«426837_j37864431681794_3_alg».proof.Proof.Gen.KernelIdeal
import proofs.«426837_j37864431681794_3_alg».proof.Proof.Gen.ReferenceIdeal
import proofs.«426837_j37864431681794_3_alg».proof.Proof.Gen.Pre_finite_inputs
import proofs.«426837_j37864431681794_3_alg».proof.Proof.Gen.ReferenceIdeal.Run
import proofs.«426837_j37864431681794_3_alg».proof.Proof.Gen.ReferenceIdeal.Read
import proofs.«426837_j37864431681794_3_alg».proof.Proof.KRun
import proofs.«426837_j37864431681794_3_alg».proof.Proof.KiRun
import proofs.«426837_j37864431681794_3_alg».proof.Proof.KiValue
import proofs.«426837_j37864431681794_3_alg».proof.Proof.RefValue
import proofs.«426837_j37864431681794_3_alg».proof.Proof.FiniteInputs
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Fr.frame m ρ

/-- The idealized kernel program runs and leaves its arguments as launched. -/
theorem frame_ki : Cert.frame_KernelIdeal := fun m ρ _ => Cert.KernelIdeal.Fr.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the same result: entry by entry the coercion of `outR`. -/
theorem algebraic : Cert.algebraic_KernelIdeal_ReferenceIdeal := by
  intro m ρ m' ρ' hpre hagree
  refine ⟨fun c => Cert.KernelIdeal.Fr.W4 m ρ c (Proc.devRef .tc Cert.KernelIdeal.main_v7), Cert.KernelIdeal.Fr.run_out m ρ, ?_⟩
  refine (θ_run Cert.ReferenceIdeal.defs _ _).mono (fun _ h c => ⟨(h c).1.trans ?_, (h c).2⟩)
    (Cert.ReferenceIdeal.Value.run (F := Ideal) m' ρ')
  obtain ⟨I, H⟩ := Cert.FiniteInputs.exists_inputs _ _ _ _ _ _ (hpre c)
  rw [Cert.ReferenceIdeal.Read.val_main_v20_eq, (hagree c).1, (hagree c).2.1, (hagree c).2.2.1, (hagree c).2.2.2.1,
    (hagree c).2.2.2.2.1, (hagree c).2.2.2.2.2]
  funext i
  obtain ⟨b, s, e, rfl⟩ : ∃ (b : Fin 4) (s : Fin 2048) (e : Fin 1024), i = ValueIdx.ix3 b s e := ⟨i 0, i 1, i 2, ValueIdx.eq_ix3 i⟩
  exact (Cert.RefValue.ref_value I _ _ _ _ _ _ H b s e).trans (Cert.KernelIdeal.Fr.ker_value m ρ I c H b s e).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
